-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S500x256 : Shape := ⟨2, ![500, 256]⟩
abbrev S8x3 : Shape := ⟨2, ![8, 3]⟩
abbrev S8x100000 : Shape := ⟨2, ![8, 100000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S500x256 : S_.BroadcastsInDim S500x256 (![] : Fin 0 → Fin S500x256.rank)
  reducesTo_S500x256_S_d0_1 : S500x256.ReducesTo [0, 1] S_
  bcast_S_S8x100000 : S_.BroadcastsInDim S8x100000 (![] : Fin 0 → Fin S8x100000.rank)
  reducesTo_S8x100000_S_d0_1 : S8x100000.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S100000x256 .f32) (main_arg1 : FVec F S500x256 .f32) (main_arg2 : IVec S8x3 32) (main_arg3 : IVec S8x100000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S500x256 .f32 := Host.absf main_arg1
  let main_cst_0 : FVec F S_ .f32 := constant S_ .f32 0x7F800000#32
  let main_v5 : FVec F S500x256 .f32 := broadcastInDim S500x256 ![] bcast_S_S500x256 main_cst_0
  let main_v6 : IVec S500x256 1 := cmpf .olt main_v4 main_v5
  let main_c_1 : IVec S_ 1 := constantI S_ 1 1#1
  let main_v7 : IVec S_ 1 := (fun x v => Host.reduce IntOp.andi x v reducesTo_S500x256_S_d0_1 h_S_) main_v6 main_c_1
  let main_v8 : IVec S_ 1 := andi main_v3 main_v7
  let main_c_2 : IVec S_ 32 := constantI S_ 32 0#32
  let main_v9 : IVec S8x100000 32 := broadcastInDim S8x100000 ![] bcast_S_S8x100000 main_c_2
  let main_v10 : IVec S8x100000 1 := cmpi .sge main_arg3 main_v9
  let main_c_3 : IVec S_ 1 := constantI S_ 1 1#1
  let main_v11 : IVec S_ 1 := (fun x v => Host.reduce IntOp.andi x v reducesTo_S8x100000_S_d0_1 h_S_) main_v10 main_c_3
  let main_v12 : IVec S_ 1 := andi main_v8 main_v11
  let main_c_4 : IVec S_ 32 := constantI S_ 32 100000#32
  let main_v13 : IVec S8x100000 32 := broadcastInDim S8x100000 ![] bcast_S_S8x100000 main_c_4
  let main_v14 : IVec S8x100000 1 := cmpi .slt main_arg3 main_v13
  let main_c_5 : IVec S_ 1 := constantI S_ 1 1#1
  let main_v15 : IVec S_ 1 := (fun x v => Host.reduce IntOp.andi x v reducesTo_S8x100000_S_d0_1 h_S_) main_v14 main_c_5
  fn_part1 (F := F) main_v12 main_v15
-- ==== Kernel.lean ====
abbrev S100000x256 : Shape := ⟨2, ![100000, 256]⟩
abbrev S500x256 : Shape := ⟨2, ![500, 256]⟩
abbrev S8x3 : Shape := ⟨2, ![8, 3]⟩
abbrev S8x100000 : Shape := ⟨2, ![8, 100000]⟩
abbrev S8x1 : Shape := ⟨2, ![8, 1]⟩
abbrev S8 : Shape := ⟨1, ![8]⟩
abbrev S_ : Shape := ⟨0, ![]⟩
abbrev S8x256 : Shape := ⟨2, ![8, 256]⟩
abbrev S4096x256 : Shape := ⟨2, ![4096, 256]⟩
abbrev S8x4096 : Shape := ⟨2, ![8, 4096]⟩
abbrev S256x256 : Shape := ⟨2, ![256, 256]⟩
abbrev S8x1x256 : Shape := ⟨3, ![8, 1, 256]⟩
abbrev S1x256x256 : Shape := ⟨3, ![1, 256, 256]⟩
abbrev S8x256x256 : Shape := ⟨3, ![8, 256, 256]⟩
abbrev S8x100000x1 : Shape := ⟨3, ![8, 100000, 1]⟩
abbrev S1 : Shape := ⟨1, ![1]⟩
abbrev S1x1x1 : Shape := ⟨3, ![1, 1, 1]⟩

abbrev nBuf : Space → Nat
  | .hbm => 50
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S500x256, .f32⟩
  | .hbm, ⟨2, _⟩ => ⟨S8x3, .i32⟩
  | .hbm, ⟨3, _⟩ => ⟨S8x100000, .i32⟩
  | .hbm, ⟨4, _⟩ => ⟨S8x1, .i32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i1⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8, .i32⟩
  | .hbm, ⟨13, _⟩ => ⟨S8x1, .i32⟩
  | .hbm, ⟨14, _⟩ => ⟨S8x256, .f32⟩
  | .hbm, ⟨15, _⟩ => ⟨S8x1, .i32⟩
  | .hbm, ⟨16, _⟩ => ⟨S8, .i32⟩
  | .hbm, ⟨17, _⟩ => ⟨S_, .i32⟩
  | .hbm, ⟨18, _⟩ => ⟨S8, .i32⟩
  | .hbm, ⟨19, _⟩ => ⟨S8, .i1⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S8, .i32⟩
  | .hbm, ⟨24, _⟩ => ⟨S8x1, .i32⟩
  | .hbm, ⟨25, _⟩ => ⟨S8x256, .f32⟩
  | .hbm, ⟨26, _⟩ => ⟨S8x256, .f32⟩
  | .hbm, ⟨27, _⟩ => ⟨S8x100000, .f32⟩
  | .hbm, ⟨28, _⟩ => ⟨S_, .i32⟩
  | .hbm, ⟨29, _⟩ => ⟨S8x100000, .i32⟩
  | .hbm, ⟨30, _⟩ => ⟨S8x100000, .i1⟩
  | .hbm, ⟨31, _⟩ => ⟨S_, .i32⟩
  | .hbm, ⟨32, _⟩ => ⟨S8x100000, .i32⟩
  | .hbm, ⟨33, _⟩ => ⟨S8x100000, .i32⟩
  | .hbm, ⟨34, _⟩ => ⟨S8x100000, .i32⟩
  | .hbm, ⟨35, _⟩ => ⟨S8x100000x1, .i32⟩
  | .hbm, ⟨36, _⟩ => ⟨S1, .i32⟩
  | .hbm, ⟨37, _⟩ => ⟨S_, .i32⟩
  | .hbm, ⟨38, _⟩ => ⟨S8x100000x1, .i32⟩
  | .hbm, ⟨39, _⟩ => ⟨S8x100000x1, .i1⟩
  | .hbm, ⟨40, _⟩ => ⟨S1x1x1, .i32⟩
  | .hbm, ⟨41, _⟩ => ⟨S8x100000x1, .i32⟩
  | .hbm, ⟨42, _⟩ => ⟨S8x100000x1, .i1⟩
  | .hbm, ⟨43, _⟩ => ⟨S8x100000x1, .i1⟩
  | .hbm, ⟨44, _⟩ => ⟨S_, .i1⟩
  | .hbm, ⟨45, _⟩ => ⟨S8x100000, .i1⟩
  | .hbm, ⟨46, _⟩ => ⟨S8x100000, .f32⟩
  | .hbm, ⟨47, _⟩ => ⟨S_, .f32⟩
  | .hbm, ⟨48, _⟩ => ⟨S8x100000, .f32⟩
  | .hbm, ⟨49, _⟩ => ⟨S8x100000, .f32⟩
  | .local _ .vmem, ⟨0, _⟩ => ⟨S8x256, .f32⟩
  | .local _ .vmem, ⟨1, _⟩ => ⟨S4096x256, .f32⟩
  | .local _ .vmem, ⟨2, _⟩ => ⟨S4096x256, .f32⟩
  | .local _ .vmem, ⟨3, _⟩ => ⟨S8x4096, .f32⟩
  | .local _ .vmem, ⟨4, _⟩ => ⟨S8x4096, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_cst : Ref sig .tc := ⟨.hbm, 47, rfl⟩
abbrev main_call0_v14 : Ref sig .tc := ⟨.hbm, 48, rfl⟩
abbrev main_v20 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_mult1 (k0_t1 : Fin k0_t1_loop.trips) : BitVec 32 :=
  let c0_i32_3 : BitVec 32 := 0#32
  let c0_i32 : BitVec 32 := 0#32
  let c1_i32 : BitVec 32 := 1#32
  let arg4 : BitVec 32 := Scf.iv c0_i32 c1_i32 k0_t1
  let c1_i32_2 : BitVec 32 := 1#32
  let v3 : BitVec 32 := Scalar.muli arg4 c1_i32_2
  let v4 : BitVec 32 := Scalar.addi c0_i32_3 v3
  let c256_i32 : BitVec 32 := 256#32
  let v5 : BitVec 32 := Scalar.muli v4 c256_i32
  v5
def k0_off1 (k0_t1 : Fin k0_t1_loop.trips) : Fin 2 → Nat :=
  let c0_i32_3 : BitVec 32 := 0#32
  let c0_i32 : BitVec 32 := 0#32
  let c1_i32 : BitVec 32 := 1#32
  let arg4 : BitVec 32 := Scf.iv c0_i32 c1_i32 k0_t1
  let c1_i32_2 : BitVec 32 := 1#32
  let v3 : BitVec 32 := Scalar.muli arg4 c1_i32_2
  let v4 : BitVec 32 := Scalar.addi c0_i32_3 v3
  let c256_i32 : BitVec 32 := 256#32
  let v5 : BitVec 32 := Scalar.muli v4 c256_i32
  let v6 : BitVec 32 := v5
  let v7 : Index := Scalar.indexCast v6
  let c0_4 : Index := 0#32
  ![v7.toNat, 0]
def k0_off2 (k0_t1 : Fin k0_t1_loop.trips) : Fin 2 → Nat :=
  let c0_6 : Index := 0#32
  let c0_i32_3 : BitVec 32 := 0#32
  let c0_i32 : BitVec 32 := 0#32
  let c1_i32 : BitVec 32 := 1#32
  let arg4 : BitVec 32 := Scf.iv c0_i32 c1_i32 k0_t1
  let c1_i32_2 : BitVec 32 := 1#32
  let v3 : BitVec 32 := Scalar.muli arg4 c1_i32_2
  let v4 : BitVec 32 := Scalar.addi c0_i32_3 v3
  let c256_i32 : BitVec 32 := 256#32
  let v5 : BitVec 32 := Scalar.muli v4 c256_i32
  let v6 : BitVec 32 := v5
  let v18 : Index := Scalar.indexCast v6
  ![0, v18.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S8x3_S8x1_0_0 : S8x3.Slices ![0, 0] S8x1
  shapeCasts_S8x1_S8 : S8x1.ShapeCasts S8
  bcast_S_S8 : S_.BroadcastsInDim S8 (![] : Fin 0 → Fin S8.rank)
  bcast_S8_S8x1_0 : S8.BroadcastsInDim S8x1 (![0] : Fin 1 → Fin S8x1.rank)
  slices_S8x3_S8x1_0_1 : S8x3.Slices ![0, 1] S8x1
  inb_S8x256_S8x256_0_0 : ∀ a, (![0, 0] : Fin 2 → Nat) a + S8x256.size a ≤ S8x256.size a
  h_S8x256 : 0 < S8x256.numel
  shapeCasts_S8x256_S8x256 : S8x256.ShapeCasts S8x256
  h_S256x256 : 0 < S256x256.numel
  shapeCasts_S8x256_S8x1x256 : S8x256.ShapeCasts S8x1x256
  shapeCasts_S256x256_S1x256x256 : S256x256.ShapeCasts S1x256x256
  broadcasts_S8x1x256_S8x256x256 : S8x1x256.Broadcasts S8x256x256
  broadcasts_S1x256x256_S8x256x256 : S1x256x256.Broadcasts S8x256x256
  reduces_S8x256x256_S8x256 : S8x256x256.Reduces [2] S8x256
  bcast_S_S8x100000 : S_.BroadcastsInDim S8x100000 (![] : Fin 0 → Fin S8x100000.rank)
  shapeCasts_S8x100000_S8x100000x1 : S8x100000.ShapeCasts S8x100000x1
  bcast_S_S8x100000x1 : S_.BroadcastsInDim S8x100000x1 (![] : Fin 0 → Fin S8x100000x1.rank)
  bcast_S1_S1x1x1_2 : S1.BroadcastsInDim S1x1x1 (![2] : Fin 1 → Fin S1x1x1.rank)
  bcast_S1x1x1_S8x100000x1_0_1_2 : S1x1x1.BroadcastsInDim S8x100000x1 (![0, 1, 2] : Fin 3 → Fin S8x100000x1.rank)
  reducesTo_S8x100000x1_S8x100000_d2 : S8x100000x1.ReducesTo [2] S8x100000
  h_S_ : 0 < S_.numel
  gather_S100000x256_S8x1_S8x256_1_0_n_n_0_1_1256_wf : GatherDims.WF S100000x256 S8x1 S8x256 [1] [0] [] [0] [] 1 ![1, 256]
  gather_S500x256_S8x1_S8x256_1_0_n_n_0_1_1256_wf : GatherDims.WF S500x256 S8x1 S8x256 [1] [0] [] [0] [] 1 ![1, 256]
  gather_S8x100000_S8x100000x1_S8x100000_n_1_0_0_1_2_11_wf : GatherDims.WF S8x100000 S8x100000x1 S8x100000 [] [1] [0] [1] [0] 2 ![1, 1]
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x256.size a ≤ S4096x256.size a
  k0_off2_inb : ∀ k0_t1 : Fin k0_t1_loop.trips, ∀ a, (k0_off2 k0_t1) a + S8x256.size a ≤ S8x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x256.size a ≤ S8x256.size a
  hwx0_0 : ∀ i : grid0.Coords, EltTy.bits .f32 = 32 ∨ (Rect.block (s := S8x256) S8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x256.size a < S100000x256.size a
  hwx0_1 : ∀ i : grid0.Coords, EltTy.bits .f32 = 32 ∨ (Rect.unit (s := S100000x256) (fun a => cc0_transform_1 i a * S4096x256.size a) (fun a => (Pipeline.Clip.of (cc0_transform_1 i a) (S4096x256.size a) (S100000x256.size a)).extent (S4096x256.size a)) fun a => Pipeline.Clip.inb (Pipeline.Clip.ok_of (hstart0_1 i a))).WholeWords (EltTy.packing .f32)
  hwxs0_1 : ∀ i : grid0.Coords, EltTy.bits .f32 = 32 ∨ (Rect.unit (s := S4096x256) (fun _ => 0) (fun a => (Pipeline.Clip.of (cc0_transform_1 i a) (S4096x256.size a) (S100000x256.size a)).extent (S4096x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8x4096.size a < S8x100000.size a
  hwx0_2 : ∀ i : grid0.Coords, EltTy.bits .f32 = 32 ∨ (Rect.unit (s := S8x100000) (fun a => cc0_transform_2 i a * S8x4096.size a) (fun a => (Pipeline.Clip.of (cc0_transform_2 i a) (S8x4096.size a) (S8x100000.size a)).extent (S8x4096.size a)) fun a => Pipeline.Clip.inb (Pipeline.Clip.ok_of (hstart0_2 i a))).WholeWords (EltTy.packing .f32)
  hwxs0_2 : ∀ i : grid0.Coords, EltTy.bits .f32 = 32 ∨ (Rect.unit (s := S8x4096) (fun _ => 0) (fun a => (Pipeline.Clip.of (cc0_transform_2 i a) (S8x4096.size a) (S8x100000.size a)).extent (S8x4096.size a)) fun a => (Nat.zero_add _).trans_le (Pipeline.Clip.extent_le (Pipeline.Clip.ok_of (hstart0_2 i a)))).WholeWords (EltTy.packing .f32)

variable [Facts₀]

def gather_S100000x256_S8x1_S8x256_1_0_n_n_0_1_1256 : GatherDims S100000x256 S8x1 S8x256 where
  offsetDims := [1]
  collapsedSliceDims := [0]
  operandBatchingDims := []
  startIndicesBatchingDims := []
  startIndexMap := [0]
  indexVectorDim := 1
  sliceSizes := ![1, 256]
  wf := gather_S100000x256_S8x1_S8x256_1_0_n_n_0_1_1256_wf
def gather_S500x256_S8x1_S8x256_1_0_n_n_0_1_1256 : GatherDims S500x256 S8x1 S8x256 where
  offsetDims := [1]
  collapsedSliceDims := [0]
  operandBatchingDims := []
  startIndicesBatchingDims := []
  startIndexMap := [0]
  indexVectorDim := 1
  sliceSizes := ![1, 256]
  wf := gather_S500x256_S8x1_S8x256_1_0_n_n_0_1_1256_wf
def gather_S8x100000_S8x100000x1_S8x100000_n_1_0_0_1_2_11 : GatherDims S8x100000 S8x100000x1 S8x100000 where
  offsetDims := []
  collapsedSliceDims := [1]
  operandBatchingDims := [0]
  startIndicesBatchingDims := [0]
  startIndexMap := [1]
  indexVectorDim := 2
  sliceSizes := ![1, 1]
  wf := gather_S8x100000_S8x100000x1_S8x100000_n_1_0_0_1_2_11_wf

abbrev win0_0 : Pipeline.Window sig grid0 :=
  Pipeline.Window.ofSpec (Memref.whole main_v18) S8x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg0) S4096x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v19) S8x4096.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S500x256 : Shape := ⟨2, ![500, 256]⟩
abbrev S8x3 : Shape := ⟨2, ![8, 3]⟩
abbrev S8x100000 : Shape := ⟨2, ![8, 100000]⟩
abbrev S8x1 : Shape := ⟨2, ![8, 1]⟩
abbrev S8 : Shape := ⟨1, ![8]⟩
abbrev S_ : Shape := ⟨0, ![]⟩
abbrev S8x256 : Shape := ⟨2, ![8, 256]⟩
abbrev S8x1x256 : Shape := ⟨3, ![8, 1, 256]⟩
abbrev S8x100000x1 : Shape := ⟨3, ![8, 100000, 1]⟩
abbrev S8x100000x256 : Shape := ⟨3, ![8, 100000, 256]⟩

abbrev nBuf : Space → Nat
  | .hbm => 46
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S500x256, .f32⟩
  | .hbm, ⟨2, _⟩ => ⟨S8x3, .i32⟩
  | .hbm, ⟨3, _⟩ => ⟨S8x100000, .i32⟩
  | .hbm, ⟨4, _⟩ => ⟨S8x1, .i32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i1⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8, .i32⟩
  | .hbm, ⟨13, _⟩ => ⟨S8x1, .i32⟩
  | .hbm, ⟨14, _⟩ => ⟨S8x256, .f32⟩
  | .hbm, ⟨15, _⟩ => ⟨S8x1x256, .f32⟩
  | .hbm, ⟨16, _⟩ => ⟨S8x1, .i32⟩
  | .hbm, ⟨17, _⟩ => ⟨S8, .i32⟩
  | .hbm, ⟨18, _⟩ => ⟨S_, .i32⟩
  | .hbm, ⟨19, _⟩ => ⟨S8, .i32⟩
  | .hbm, ⟨20, _⟩ => ⟨S8, .i1⟩
  | .hbm, ⟨21, _⟩ => ⟨S_, .i32⟩
  | .hbm, ⟨22, _⟩ => ⟨S8, .i32⟩
  | .hbm, ⟨23, _⟩ => ⟨S8, .i32⟩
  | .hbm, ⟨24, _⟩ => ⟨S8, .i32⟩
  | .hbm, ⟨25, _⟩ => ⟨S8x1, .i32⟩
  | .hbm, ⟨26, _⟩ => ⟨S8x256, .f32⟩
  | .hbm, ⟨27, _⟩ => ⟨S8x1x256, .f32⟩
  | .hbm, ⟨28, _⟩ => ⟨S_, .i32⟩
  | .hbm, ⟨29, _⟩ => ⟨S8x100000, .i32⟩
  | .hbm, ⟨30, _⟩ => ⟨S8x100000, .i1⟩
  | .hbm, ⟨31, _⟩ => ⟨S_, .i32⟩
  | .hbm, ⟨32, _⟩ => ⟨S8x100000, .i32⟩
  | .hbm, ⟨33, _⟩ => ⟨S8x100000, .i32⟩
  | .hbm, ⟨34, _⟩ => ⟨S8x100000, .i32⟩
  | .hbm, ⟨35, _⟩ => ⟨S8x100000x1, .i32⟩
  | .hbm, ⟨36, _⟩ => ⟨S8x100000x256, .f32⟩
  | .hbm, ⟨37, _⟩ => ⟨S8x1x256, .f32⟩
  | .hbm, ⟨38, _⟩ => ⟨S8x100000x256, .f32⟩
  | .hbm, ⟨39, _⟩ => ⟨S8x100000x256, .f32⟩
  | .hbm, ⟨40, _⟩ => ⟨S8x100000x256, .f32⟩
  | .hbm, ⟨41, _⟩ => ⟨S_, .f32⟩
  | .hbm, ⟨42, _⟩ => ⟨S8x100000, .f32⟩
  | .hbm, ⟨43, _⟩ => ⟨S_, .f32⟩
  | .hbm, ⟨44, _⟩ => ⟨S8x100000, .f32⟩
  | .hbm, ⟨45, _⟩ => ⟨S8x100000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  slices_S8x3_S8x1_0_0 : S8x3.Slices ![0, 0] S8x1
  shapeCasts_S8x1_S8 : S8x1.ShapeCasts S8
  bcast_S_S8 : S_.BroadcastsInDim S8 (![] : Fin 0 → Fin S8.rank)
  bcast_S8_S8x1_0 : S8.BroadcastsInDim S8x1 (![0] : Fin 1 → Fin S8x1.rank)
  bcast_S8x256_S8x1x256_0_2 : S8x256.BroadcastsInDim S8x1x256 (![0, 2] : Fin 2 → Fin S8x1x256.rank)
  slices_S8x3_S8x1_0_1 : S8x3.Slices ![0, 1] S8x1
  bcast_S_S8x100000 : S_.BroadcastsInDim S8x100000 (![] : Fin 0 → Fin S8x100000.rank)
  bcast_S8x100000_S8x100000x1_0_1 : S8x100000.BroadcastsInDim S8x100000x1 (![0, 1] : Fin 2 → Fin S8x100000x1.rank)
  bcast_S8x1x256_S8x100000x256_0_1_2 : S8x1x256.BroadcastsInDim S8x100000x256 (![0, 1, 2] : Fin 3 → Fin S8x100000x256.rank)
  reducesTo_S8x100000x256_S8x100000_d2 : S8x100000x256.ReducesTo [2] S8x100000
  h_S_ : 0 < S_.numel
  gather_S100000x256_S8x1_S8x256_1_0_n_n_0_1_1256_wf : GatherDims.WF S100000x256 S8x1 S8x256 [1] [0] [] [0] [] 1 ![1, 256]
  gather_S500x256_S8x1_S8x256_1_0_n_n_0_1_1256_wf : GatherDims.WF S500x256 S8x1 S8x256 [1] [0] [] [0] [] 1 ![1, 256]
  gather_S100000x256_S8x100000x1_S8x100000x256_2_0_n_n_0_2_1256_wf : GatherDims.WF S100000x256 S8x100000x1 S8x100000x256 [2] [0] [] [0] [] 2 ![1, 256]

variable [Facts₀]

def gather_S100000x256_S8x1_S8x256_1_0_n_n_0_1_1256 : GatherDims S100000x256 S8x1 S8x256 where
  offsetDims := [1]
  collapsedSliceDims := [0]
  operandBatchingDims := []
  startIndicesBatchingDims := []
  startIndexMap := [0]
  indexVectorDim := 1
  sliceSizes := ![1, 256]
  wf := gather_S100000x256_S8x1_S8x256_1_0_n_n_0_1_1256_wf
def gather_S500x256_S8x1_S8x256_1_0_n_n_0_1_1256 : GatherDims S500x256 S8x1 S8x256 where
  offsetDims := [1]
  collapsedSliceDims := [0]
  operandBatchingDims := []
  startIndicesBatchingDims := []
  startIndexMap := [0]
  indexVectorDim := 1
  sliceSizes := ![1, 256]
  wf := gather_S500x256_S8x1_S8x256_1_0_n_n_0_1_1256_wf
def gather_S100000x256_S8x100000x1_S8x100000x256_2_0_n_n_0_2_1256 : GatherDims S100000x256 S8x100000x1 S8x100000x256 where
  offsetDims := [2]
  collapsedSliceDims := [0]
  operandBatchingDims := []
  startIndicesBatchingDims := []
  startIndexMap := [0]
  indexVectorDim := 2
  sliceSizes := ![1, 256]
  wf := gather_S100000x256_S8x100000x1_S8x100000x256_2_0_n_n_0_2_1256_wf

class Facts : Prop extends Facts₀ where

variable [Facts]
-- ==== Proof.Kernel.WordFrame.lean ====
/-
  The FRAME of the word-level program: every weakly fair execution of @main terminates, nothing faults, and the
  four argument arrays end as launched. Nothing is said of the result.

  The region's body reads each staging buffer and overwrites the output tile; at the word level the lane sum is an
  opaque function of its whole source vector, and the clipped last tile of the table leaves words in the buffer that
  no array names. The frame claim needs none of it: every window's staging contents are FORGOTTEN — handed to the
  body at some contents, taken back at some contents — and only the arrays are followed: an input window's array is
  never written, and an array no window stages is written neither by the region nor by the host lines around it.
-/
import proofs.«406659_j16879221473499_3_alg».proof.Proof.Gen.Kernel.Frame
import proofs.«406659_j16879221473499_3_alg».proof.Proof.Gen.Kernel.Loops
import proofs.«406659_j16879221473499_3_alg».proof.Proof.Gen.Kernel.Skeleton
import proofs.«406659_j16879221473499_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.WordFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on staging memrefs at any contents -/

set_option maxHeartbeats 1000000 in
/-- The body's triple with every window forgotten: from the three staging memrefs whole, each at SOME contents, the
    body — one whole load of the query block, then sixteen trips each loading a chunk of the table tile and a chunk
    of the output tile and storing that output chunk — runs to the continuation holding the three again at some
    contents. Nothing of what is loaded or stored is named: the loads are of whatever the buffers hold, and the
    output tile ends at its entry contents overwritten by the trips' pieces, which is again some contents. -/
theorem kernelRun (c : Dev nD) (i : grid0.Coords)
    (arg1 : Memref sig .tc .vmem S8x256 .f32) (harg1 : arg1.IsWhole)
    (arg2 : Memref sig .tc .vmem S4096x256 .f32) (harg2 : arg2.IsWhole)
    (arg3 : Memref sig .tc .vmem S8x4096 .f32) (harg3 : arg3.IsWhole) :
      ∀ (E : Set ℕ) (K : PUnit → sProp 𝕄),
        iprop((∃ d, owns (c : Thread nD τ) arg1 fullShare d) ∗ (∃ d, owns (c : Thread nD τ) arg2 fullShare d)
            ∗ (∃ d, owns (c : Thread nD τ) arg3 fullShare d)
            ∗ (iprop((∃ d, owns (c : Thread nD τ) arg1 fullShare d) ∗ (∃ d, owns (c : Thread nD τ) arg2 fullShare d)
                ∗ (∃ d, owns (c : Thread nD τ) arg3 fullShare d)) -∗ K ⟨⟩))
          ⊢ wp frame (wpE (defs₀ (F := F)) Variants.none c none) E (cc0__dense_l1_kernel i arg1 harg1 arg2 harg2 arg3 harg3) K := by
    intro E K
    simp only [cc0__dense_l1_kernel_eq_skeleton]; unfold cc0__dense_l1_kernel_skel
    unfold owns
    iintro ⟨⟨%d0, %f0, -, H0⟩, ⟨%d1, %f1, -, H1⟩, ⟨%d2, %f2, -, H2⟩, Hk⟩
    sl_exec
    sl_step
    iapply Hk
    isplitl [H0]
    · iexists _, _; isplitr; swap; · iexact H0
      ipureintro; rfl
    isplitl [H1]
    · iexists _, _; isplitr; swap; · iexact H1
      ipureintro; rfl
    iexists _, _; isplitr; swap; · iexact H2
    ipureintro; rfl

/-! ## The pipeline's proof data -/

/-- Every window is forgotten: nothing the frame claims reads what the body leaves in a staging buffer. -/
def forgets : Fin 3 → Bool := fun _ => true

/-- The proof data on core `c`: the arrays as the region finds them; after the body each staging buffer at contents
    nothing names; the invariant the core's scoped buffers outside the staging and its random-bits register, which the body never touches; nothing owed; full shares. -/
def dats (c : Dev nD) : Dat τ (Elt F) Unit ℕ (UR sig nD τ) ℕ cfg0 c where
  A w := V m c (Pipeline.arrRef spec0 w)
  after w t := match w with
    | ⟨0, h⟩ => Pipeline.Dat.unnamed (cfg := cfg0) ⟨0, h⟩ t
    | ⟨1, h⟩ => Pipeline.Dat.unnamed (cfg := cfg0) ⟨1, h⟩ t
    | ⟨2, h⟩ => Pipeline.Dat.unnamed (cfg := cfg0) ⟨2, h⟩ t
  Φ _ := Pipeline.ΦA spec0 c
  q _ := fullShare
  owed _ := 0

/-- The proof data's arrays are the region-entry contents (the definition projected). -/
theorem A_eq (c : Dev nD) (w : Fin cfg0.W) : (dats m c).A w = V m c (Pipeline.arrRef spec0 w) := by
  dsimp only [dats]

/-! ## The body obligation, at a generic point -/

/-- Each window's current staging memref at point `t`, as the pipeline passes it to the body. -/
abbrev ms0 (t : Fin cfg0.N) : Memref sig .tc .vmem S8x256 .f32 := win0_0.stage (cfg0.slots t 0)
abbrev ms1 (t : Fin cfg0.N) : Memref sig .tc .vmem S4096x256 .f32 := win0_1.stage (cfg0.slots t 1)
abbrev ms2 (t : Fin cfg0.N) : Memref sig .tc .vmem S8x4096 .f32 := win0_2.stage (cfg0.slots t 2)

/-- The body at any point: the invariant and the core's dues pass through untouched (the body uses neither), and the
    three staging buffers go in and come back at some contents (`kernelRun`). -/
theorem sound_body (c : Dev nD) (t : Fin cfg0.N) :
    iprop((dats m c).Φ t.castSucc ∗ (dats m c).owesAt () t.castSucc
        ∗ (∃ X, owns (c : Thread nD τ) (ms0 t) fullShare X)
        ∗ (∃ X, owns (c : Thread nD τ) (ms1 t) fullShare X)
        ∗ (∃ X, owns (c : Thread nD τ) (ms2 t) fullShare X))
      ⊢ wp frame (wpE (defs₀ (F := F)) Variants.none c none) Set.univ (bodyAt0 t) (fun _ =>
          iprop((dats m c).Φ t.succ ∗ (dats m c).owesAt () t.succ
            ∗ (∃ X, owns (c : Thread nD τ) (ms0 t) fullShare X)
            ∗ (∃ X, owns (c : Thread nD τ) (ms1 t) fullShare X)
            ∗ (∃ X, owns (c : Thread nD τ) (ms2 t) fullShare X))) := by
  rw [show (dats m c).Φ t.succ = (dats m c).Φ t.castSucc from rfl,
    show (dats m c).owesAt () t.succ = (dats m c).owesAt () t.castSucc from rfl]
  iintro ⟨HΦ, Ho, H0, H1, H2⟩
  iapply ((kernelRun c (grid0.coords t) _ _ _ _ _ _) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexact H1
  iexact H2

/-- The library's body obligation in the form the loop uses, every window forgotten, at every point. -/
theorem body_obligation (c : Dev nD) :
    Pipeline.BodyObligationLoose (dats (F := F) m c) (defs₀ (F := F)) Variants.none () Set.univ forgets := fun t => by
  rw [bigSep_W0, bigSep_W0]
  exact sound_body m c t

/-! ## The host lines after the region -/

/-- The buffers the host lines after the region WRITE, as references: results computed from the output array, whose
    contents the run does not name, so nothing is stated of them either. No argument array is among them. -/
def T : Finset (Ref sig .tc) :=
  {main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_cst, main_call0_v14,
   main_v20}

/-- Each of those lines writes its own result buffer only, and that buffer is in `T`. -/
theorem sfx_writes : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals
    intro b hb
    simp only [StableHlo.nullary_writes, StableHlo.unary_writes, StableHlo.binary_writes, StableHlo.ternary_writes,
      StableHlo.reshape_writes, Finset.mem_singleton] at hb
    cases Proc.devRef_injective _ hb
    decide

/-! ## The run and the frame -/

set_option backward.isDefEq.respectTransparency.types false in
/-- Every weakly fair execution of @main terminates without fault, and every final state has each INPUT window's array
    as the region found it and every unscoped buffer that no window stages and no later host line writes at its
    region-entry contents; of the staging buffers, the output array and the later lines' results nothing is said. -/
theorem run_main : θ_run defs (onTc (τ := τ) (main (F := F))) (s₀ m ρ)
    (Pipeline.RDat.FramePostR (cfgs 0) (fun c => (dats m c).toRForget forgets) T (V m)) :=
  Pipeline.RDat.θ_run_frame_around_T cfgs (0 : Fin 1) launch0 defs₀ Variants.none (fun c => (dats m c).toRForget forgets) T m ρ main
    (hbody := fun c => (body_obligation m c).toRForget) (hshare := fun c => ((dats m c).toRForget forgets).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

/-- THE FRAME: @main runs, and the four argument arrays end as launched. The table (the array of input window 1) is
    never written by the region and was written by no host line before it; the other three arguments are staged by no
    window and written by no host line, before the region or after it. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Pipeline.RDat.FramePostR.arr_in h c 1 rfl).trans ((A_eq m c 1).trans (V_main_arg0 m c)),
     ((h c).2 main_arg1 (Finset.mem_sdiff.mpr ⟨Pipeline.mem_restRefs_of main_arg1 (by decide) (by decide), by decide⟩)).trans (V_main_arg1 m c),
     ((h c).2 main_arg2 (Finset.mem_sdiff.mpr ⟨Pipeline.mem_restRefs_of main_arg2 (by decide) (by decide), by decide⟩)).trans (V_main_arg2 m c),
     ((h c).2 main_arg3 (Finset.mem_sdiff.mpr ⟨Pipeline.mem_restRefs_of main_arg3 (by decide) (by decide), by decide⟩)).trans (V_main_arg3 m c)⟩)
    (run_main m ρ)

end Cert.Kernel.WordFrame

end
-- ==== Proof.KernelIdeal.TileRun.lean ====
import proofs.«406659_j16879221473499_3_alg».proof.Proof.Gen.KernelIdeal.Frame
import proofs.«406659_j16879221473499_3_alg».proof.Proof.Gen.KernelIdeal.Loops
import proofs.«406659_j16879221473499_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- What the output tile's buffer holds after the body, over what the three buffers held before: the sixteen chunk
    stores, last first, written over the prior contents. -/
def tileOut (c : Dev nD) (i : grid0.Coords) (arg1 : Memref sig .tc .vmem S8x256 .f32) (harg1 : arg1.IsWhole) (arg2 : Memref sig .tc .vmem S4096x256 .f32) (harg2 : arg2.IsWhole) (arg3 : Memref sig .tc .vmem S8x4096 .f32) (harg3 : arg3.IsWhole)
    (x0 : Vec F S8x256 .f32) (x1 : Vec F S4096x256 .f32) (x2 : Vec F S8x4096 .f32) : Vec F S8x4096 .f32 :=
  arg3.view.read (Elt F) (arg3.view.writes (Elt F) (harg3.unread x2)
    (pb_k0_t1 (F := F) Variants.none c none i arg1 harg1 arg2 harg2 arg3 harg3
      (View.readAt (Elt F) arg1.view (Rect.unit (s := S8x256) ![0, 0] S8x256.size inb_S8x256_S8x256_0_0).toLoadRect (harg1.unread x0))
      (harg2.unread x1) (Scf.trips k0_t1_loop.lb k0_t1_loop.ub k0_t1_loop.st)))

set_option maxHeartbeats 1000000 in
/-- The body on any whole staging memrefs holding the query block `x0`, an entity tile `x1` and anything `x2`: it runs,
    faults nowhere, leaves the two inputs as they were and the output tile at `tileOut`. -/
theorem tileRun (c : Dev nD) (i : grid0.Coords) (arg1 : Memref sig .tc .vmem S8x256 .f32) (harg1 : arg1.IsWhole) (arg2 : Memref sig .tc .vmem S4096x256 .f32) (harg2 : arg2.IsWhole) (arg3 : Memref sig .tc .vmem S8x4096 .f32) (harg3 : arg3.IsWhole)
    (x0 : Vec F S8x256 .f32) (x1 : Vec F S4096x256 .f32) (x2 : Vec F S8x4096 .f32) :
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (iprop(owns (c : Thread nD τ) arg1 fullShare x0 ∗ owns (c : Thread nD τ) arg2 fullShare x1
                ∗ owns (c : Thread nD τ) arg3 fullShare (tileOut c i arg1 harg1 arg2 harg2 arg3 harg3 x0 x1 x2)) -∗ K ⟨⟩))
          ⊢ wp frame (wpE (defs₀ (F := F)) Variants.none c none) E (cc0__dense_l1_kernel i arg1 harg1 arg2 harg2 arg3 harg3) K := by
    intro E K
    simp only [cc0__dense_l1_kernel_eq_skeleton]; unfold cc0__dense_l1_kernel_skel
    unfold owns
    iintro ⟨⟨%f0, %hf0, H0⟩, ⟨%f1, %hf1, H1⟩, ⟨%f2, %hf2, H2⟩, Hk⟩
    obtain rfl := harg1.eq_unread hf0
    obtain rfl := harg2.eq_unread hf1
    obtain rfl := harg3.eq_unread hf2
    sl_exec
    sl_step
    iapply Hk
    isplitl [H0]
    · iexists _; isplitr; · ipureintro; exact hf0
      iexact H0
    isplitl [H1]
    · iexists _; isplitr; · ipureintro; exact hf1
      iexact H1
    iexists _; isplitr; swap; · iexact H2
    ipureintro; rfl

/-- One trip of the loop stores one piece: at columns 256·k … of the output tile, the payload of the query block and
    of the chunk loaded at rows 256·k … of the entity tile. -/
theorem tripL_eq (𝒱 : Variants) (c : Dev nD) (bd : Option 𝒱.V) (i : grid0.Coords) (arg1 : Memref sig .tc .vmem S8x256 .f32) (harg1 : arg1.IsWhole) (arg2 : Memref sig .tc .vmem S4096x256 .f32) (harg2 : arg2.IsWhole) (arg3 : Memref sig .tc .vmem S8x4096 .f32) (harg3 : arg3.IsWhole)
    (v0 : Vec F S8x256 .f32) (X : BufTy.Contents (Elt F) arg2.view.ty) (k : Fin k0_t1_loop.trips) :
    tripL_k0_t1 (F := F) 𝒱 c bd i arg1 harg1 arg2 harg2 arg3 harg3 v0 X k
      = [(⟨Rect.unit (s := S8x4096) (k0_off2 k) S8x256.size (k0_off2_inb k),
          k0_pay1 v0 (View.readAt (Elt F) arg2.view (Rect.unit (s := S4096x256) (k0_off1 k) S256x256.size (k0_off1_inb k)).toLoadRect X)⟩ : View.Piece (Elt F) S8x4096 .f32)] := by
  unfold tripL_k0_t1 trip_k0_t1
  rfl

end Cert.KernelIdeal.Tile

end
-- ==== Proof.KernelIdeal.TileValue.lean ====
import proofs.«406659_j16879221473499_3_alg».proof.Proof.KernelIdeal.TileRun
import Idealize.ShloMosaic.Lib.ValueIdx
import Idealize.ShloMosaic.Lib.Writes
import Idealize.ShloMosaic.Lib.Pipeline.Value

set_option maxRecDepth 16384

noncomputable section

namespace Cert.KernelIdeal.Tile

open Cert.KernelIdeal Cert.KernelIdeal.Gen
open Idealize.ShloMosaic Idealize.ShloMosaic.ValueIdx

variable {F : FTy → Type} [FloatOps F]

/-- The loop runs sixteen trips. -/
theorem trips_eq : k0_t1_loop.trips = 16 := by decide

/-- Rows 256·k … 256·k + 255 of an entity tile: the chunk the k-th trip loads (for k below sixteen the reduction
    modulo the tile's height changes nothing; it only keeps the row in range for every k). -/
def chunk (x1 : Vec F S4096x256 .f32) (k : Nat) : Vec F S256x256 .f32 := fun z =>
  x1 (ix2 ⟨(256 * k + (z 0).val) % 4096, Nat.mod_lt _ (by decide)⟩ ⟨(z 1).val, idx2_lt1 z⟩)

/-- The tile of scores as ONE function of the query block and the entity tile: column n is the payload of the chunk
    that holds row n, read at that row's place in the chunk. -/
def tileFn (x0 : Vec F S8x256 .f32) (x1 : Vec F S4096x256 .f32) : Vec F S8x4096 .f32 := fun y =>
  k0_pay1 x0 (chunk x1 ((y 1).val / 256))
    (ix2 ⟨(y 0).val, idx2_lt0 y⟩ ⟨(y 1).val % 256, Nat.mod_lt _ (by decide)⟩)

/-- The piece the k-th trip stores. -/
def piece (arg2 : Memref sig .tc .vmem S4096x256 .f32) (v0 : Vec F S8x256 .f32) (X : BufTy.Contents (Elt F) arg2.view.ty)
    (k : Fin k0_t1_loop.trips) : View.Piece (Elt F) S8x4096 .f32 :=
  ⟨Rect.unit (s := S8x4096) (k0_off2 k) S8x256.size (k0_off2_inb k),
    k0_pay1 v0 (View.readAt (Elt F) arg2.view (Rect.unit (s := S4096x256) (k0_off1 k) S256x256.size (k0_off1_inb k)).toLoadRect X)⟩

/-- The pieces of the trips before `n` are exactly the pieces of the trips below `n`. -/
theorem mem_pb (𝒱 : Variants) (c : Dev nD) (bd : Option 𝒱.V) (i : grid0.Coords) (arg1 : Memref sig .tc .vmem S8x256 .f32) (harg1 : arg1.IsWhole) (arg2 : Memref sig .tc .vmem S4096x256 .f32) (harg2 : arg2.IsWhole) (arg3 : Memref sig .tc .vmem S8x4096 .f32) (harg3 : arg3.IsWhole)
    (v0 : Vec F S8x256 .f32) (X : BufTy.Contents (Elt F) arg2.view.ty) :
    ∀ n, n ≤ k0_t1_loop.trips → ∀ p, p ∈ pb_k0_t1 (F := F) 𝒱 c bd i arg1 harg1 arg2 harg2 arg3 harg3 v0 X n
      ↔ ∃ k : Fin k0_t1_loop.trips, k.val < n ∧ p = piece arg2 v0 X k
  | 0, _, p => by
    rw [pb_k0_t1.eq_1]
    exact ⟨fun h => absurd h List.not_mem_nil, fun ⟨k, hk, _⟩ => absurd hk (Nat.not_lt_zero _)⟩
  | n + 1, hn, p => by
    have h := pb_k0_t1_succ (F := F) 𝒱 c bd i arg1 harg1 arg2 harg2 arg3 harg3 v0 X ⟨n, hn⟩
    rw [h, List.mem_append, tripL_eq, List.mem_singleton,
      mem_pb 𝒱 c bd i arg1 harg1 arg2 harg2 arg3 harg3 v0 X n (Nat.le_of_succ_le hn) p]
    constructor
    · rintro (rfl | ⟨k, hk, rfl⟩)
      · exact ⟨⟨n, hn⟩, Nat.lt_succ_self n, rfl⟩
      · exact ⟨k, Nat.lt_succ_of_lt hk, rfl⟩
    · rintro ⟨k, hk, rfl⟩
      rcases Nat.lt_succ_iff_lt_or_eq.mp hk with h' | h'
      · exact Or.inr ⟨k, h', rfl⟩
      · exact Or.inl (congrArg (piece arg2 v0 X) (Fin.ext h'))

/-- What the k-th trip's load reads of a whole memref holding the tile `x1`: its k-th chunk. -/
theorem load_chunk (arg2 : Memref sig .tc .vmem S4096x256 .f32) (harg2 : arg2.IsWhole) (x1 : Vec F S4096x256 .f32)
    (k : Fin k0_t1_loop.trips) :
    View.readAt (Elt F) arg2.view (Rect.unit (s := S4096x256) (k0_off1 k) S256x256.size (k0_off1_inb k)).toLoadRect (harg2.unread x1)
      = chunk x1 k.val := by
  have hk : k.val < 16 := trips_eq ▸ k.isLt
  have hoff := k0_off1_eq k
  rw [View.readAt_eq_ld, harg2.read_unread]
  funext z
  have hz0 : (z 0).val < 256 := (z 0).isLt
  unfold chunk
  refine congrArg x1 (funext fun a => Fin.ext ?_)
  match a with
  | ⟨0, _⟩ =>
    have h0 : k0_off1 k 0 = 256 * k.val := congrFun hoff 0
    show (k0_off1 k) 0 + 1 * (z 0).val = (256 * k.val + (z 0).val) % 4096
    omega
  | ⟨1, _⟩ =>
    have h1 : k0_off1 k 1 = 0 := congrFun hoff 1
    show (k0_off1 k) 1 + 1 * (z 1).val = (z 1).val
    omega

/-- The k-th trip's piece is the block of `tileFn` at its rectangle. -/
theorem piece_val (arg2 : Memref sig .tc .vmem S4096x256 .f32) (harg2 : arg2.IsWhole) (x0 : Vec F S8x256 .f32)
    (x1 : Vec F S4096x256 .f32) (k : Fin k0_t1_loop.trips)
    (x : (piece arg2 x0 (harg2.unread x1) k).1.shape.Idx) :
    (piece arg2 x0 (harg2.unread x1) k).2 x = tileFn x0 x1 ((piece arg2 x0 (harg2.unread x1) k).1.emb x) := by
  have hk : k.val < 16 := trips_eq ▸ k.isLt
  have hoff := k0_off2_eq k
  have hx0 : (x 0).val < 8 := (x 0).isLt
  have hx1 : (x 1).val < 256 := (x 1).isLt
  have e0 : (((piece arg2 x0 (harg2.unread x1) k).1.emb x) 0).val = (x 0).val := by
    have h0 : k0_off2 k 0 = 0 := congrFun hoff 0
    show (k0_off2 k) 0 + 1 * (x 0).val = _
    omega
  have e1 : (((piece arg2 x0 (harg2.unread x1) k).1.emb x) 1).val = 256 * k.val + (x 1).val := by
    have h1 : k0_off2 k 1 = 256 * k.val := congrFun hoff 1
    show (k0_off2 k) 1 + 1 * (x 1).val = _
    omega
  unfold tileFn
  show k0_pay1 x0 (View.readAt (Elt F) arg2.view (Rect.unit (s := S4096x256) (k0_off1 k) S256x256.size (k0_off1_inb k)).toLoadRect (harg2.unread x1)) x = _
  rw [load_chunk arg2 harg2 x1 k]
  have hd : (((piece arg2 x0 (harg2.unread x1) k).1.emb x) 1).val / 256 = k.val := by rw [e1]; omega
  rw [hd]
  refine congrArg (k0_pay1 x0 (chunk x1 k.val)) (funext fun a => Fin.ext ?_)
  match a with
  | ⟨0, _⟩ => exact e0.symm
  | ⟨1, _⟩ =>
    show (x 1).val = (((piece arg2 x0 (harg2.unread x1) k).1.emb x) 1).val % 256
    rw [e1]; omega

/-- THE TILE: after the body the output tile's buffer holds `tileFn` of the query block and the entity tile, whatever
    it held before and whichever memrefs stage the three blocks. -/
theorem tileOut_eq (c : Dev nD) (i : grid0.Coords) (arg1 : Memref sig .tc .vmem S8x256 .f32) (harg1 : arg1.IsWhole) (arg2 : Memref sig .tc .vmem S4096x256 .f32) (harg2 : arg2.IsWhole) (arg3 : Memref sig .tc .vmem S8x4096 .f32) (harg3 : arg3.IsWhole)
    (x0 : Vec F S8x256 .f32) (x1 : Vec F S4096x256 .f32) (x2 : Vec F S8x4096 .f32) :
    tileOut c i arg1 harg1 arg2 harg2 arg3 harg3 x0 x1 x2 = tileFn x0 x1 := by
  have hz : (![0, 0] : Fin 2 → Nat) = fun _ => 0 := funext fun a => by fin_cases a <;> rfl
  have hv0 : View.readAt (Elt F) arg1.view (Rect.unit (s := S8x256) ![0, 0] S8x256.size inb_S8x256_S8x256_0_0).toLoadRect (harg1.unread x0) = x0 := by
    rw [View.readAt_eq_ld, harg1.read_unread]
    exact View.ld_unit_zero (S := S8x256) hz _ x0
  unfold tileOut
  rw [hv0]
  funext y
  have hmem := mem_pb (F := F) Variants.none c none i arg1 harg1 arg2 harg2 arg3 harg3 x0 (harg2.unread x1)
    (Scf.trips k0_t1_loop.lb k0_t1_loop.ub k0_t1_loop.st) (show Scf.trips k0_t1_loop.lb k0_t1_loop.ub k0_t1_loop.st ≤ k0_t1_loop.trips from le_rfl)
  refine View.read_writes_apply_of_pieces arg3.view (harg3.unread x2) (tileFn x0 x1) _ (fun p hp x => ?_) y ?_
  · obtain ⟨k, -, rfl⟩ := (hmem p).mp hp
    exact piece_val arg2 harg2 x0 x1 k x
  · have hy0 : (y 0).val < 8 := idx2_lt0 y
    have hy1 : (y 1).val < 4096 := idx2_lt1 y
    have hkk : (y 1).val / 256 < k0_t1_loop.trips := by rw [trips_eq]; omega
    refine ⟨piece arg2 x0 (harg2.unread x1) ⟨(y 1).val / 256, hkk⟩, (hmem _).mpr ⟨⟨(y 1).val / 256, hkk⟩, hkk, rfl⟩, ?_⟩
    show y ∈ (Rect.unit (s := S8x4096) (k0_off2 ⟨(y 1).val / 256, hkk⟩) S8x256.size (k0_off2_inb _)).set
    rw [Rect.mem_set_unit]
    have hoff := k0_off2_eq ⟨(y 1).val / 256, hkk⟩
    intro a
    match a with
    | ⟨0, _⟩ =>
      have h0 : k0_off2 ⟨(y 1).val / 256, hkk⟩ 0 = 0 := congrFun hoff 0
      show k0_off2 ⟨(y 1).val / 256, hkk⟩ 0 ≤ (y 0).val ∧ (y 0).val < k0_off2 ⟨(y 1).val / 256, hkk⟩ 0 + 8
      omega
    | ⟨1, _⟩ =>
      have h1 : k0_off2 ⟨(y 1).val / 256, hkk⟩ 1 = 256 * ((y 1).val / 256) := congrFun hoff 1
      show k0_off2 ⟨(y 1).val / 256, hkk⟩ 1 ≤ (y 1).val ∧ (y 1).val < k0_off2 ⟨(y 1).val / 256, hkk⟩ 1 + 256
      omega

end Cert.KernelIdeal.Tile

end
-- ==== Proof.Spec.lean ====
/-
  What both programs compute, as one function of the four argument arrays.

  TransE in tail-batch mode. For batch row b the query vector is hr[b, ·] = E[p₀(b), ·] + R[p₁(b), ·], where p₀, p₁ are
  the first two columns of the positive triple, each read as a gather reads a start index (a negative word has the
  axis length added; the result is read signed and clamped into the table). The score of row b against entity e is
  γ − ‖hr[b, ·] − E[e, ·]‖₁ with γ = 12, and result entry (b, n) is that score at the entity the word idx[b, n] names.
  Everything is over the extended reals, entry by entry; no law beyond the definitions is used here.
-/
import Idealize.ShloMosaic.PureOps.Ideal
import Idealize.ShloMosaic.Lib.ValueIdx

noncomputable section

namespace Cert.Spec

open Idealize.ShloMosaic Idealize.ShloMosaic.ValueIdx

/-- The entity table, the relation table, the positive triples, the candidate indices (and the result), the query rows. -/
abbrev SE : Shape := ⟨2, ![100000, 256]⟩
abbrev SR : Shape := ⟨2, ![500, 256]⟩
abbrev SP : Shape := ⟨2, ![8, 3]⟩
abbrev SN : Shape := ⟨2, ![8, 100000]⟩
abbrev SH : Shape := ⟨2, ![8, 256]⟩

/-- A negative index counts from the end: the axis length `n` is added to a word that is negative as a signed number. -/
def wrap (n x : BitVec 32) : BitVec 32 := Scalar.select (IntOp.cmpi .slt x 0#32) (IntOp.addi x n) x

/-- The row of an `N`-row table a gather's start word reads: the word read signed, a negative one giving row 0, one
    past the end the last row. -/
def rowOf (N : Nat) (hN : 0 < N) (x : BitVec 32) : Fin N := ⟨min x.toInt.toNat (N - 1), by omega⟩

/-- The query rows: head plus relation. -/
def hrOf (E : SE.Idx → EReal) (R : SR.Idx → EReal) (P : SP.Idx → BitVec 32) : SH.Idx → EReal := fun j =>
  E (ix2 (rowOf 100000 (by decide) (wrap 100000#32 (P (ix2 ⟨(j 0).val, idx2_lt0 j⟩ (0 : Fin 3))))) ⟨(j 1).val, idx2_lt1 j⟩)
    + R (ix2 (rowOf 500 (by decide) (wrap 500#32 (P (ix2 ⟨(j 0).val, idx2_lt0 j⟩ (1 : Fin 3))))) ⟨(j 1).val, idx2_lt1 j⟩)

/-- The score of query row `b` against entity `e`: γ less the L1 distance, γ = 12 (the word 0x41400000). -/
def scoreAt (hr : SH.Idx → EReal) (E : SE.Idx → EReal) (b : Fin 8) (e : Fin 100000) : EReal :=
  Ideal.ofBits .f32 0x41400000#32 - ∑ h : Fin 256, FloatOps.absf (F := Ideal) (φ := .f32) (hr (ix2 b h) - E (ix2 e h))

/-- The dense table of scores: every query row against every entity. -/
def table (hr : SH.Idx → EReal) (E : SE.Idx → EReal) : SN.Idx → EReal := fun j =>
  scoreAt hr E ⟨(j 0).val, idx2_lt0 j⟩ ⟨(j 1).val, idx2_lt1 j⟩

/-- The candidates' scores: entry (b, n) is query row b against the entity the word `idx[b, n]` names. -/
def score (hr : SH.Idx → EReal) (E : SE.Idx → EReal) (idx : SN.Idx → BitVec 32) : SN.Idx → EReal := fun j =>
  scoreAt hr E ⟨(j 0).val, idx2_lt0 j⟩ (rowOf 100000 (by decide) (wrap 100000#32 (idx j)))

/-- The result of either program on entity table `E`, relation table `R`, positive triples `P`, candidate indices `N`. -/
def result (E : SE.Idx → EReal) (R : SR.Idx → EReal) (P : SP.Idx → BitVec 32) (N : SN.Idx → BitVec 32) : SN.Idx → EReal :=
  score (hrOf E R P) E N

/-- A candidate's score is the dense table read at the row its word names. -/
theorem score_eq_table (hr : SH.Idx → EReal) (E : SE.Idx → EReal) (idx : SN.Idx → BitVec 32) (j : SN.Idx) :
    score hr E idx j = table hr E (ix2 ⟨(j 0).val, idx2_lt0 j⟩ (rowOf 100000 (by decide) (wrap 100000#32 (idx j)))) := rfl

end Cert.Spec

end
-- ==== Proof.KernelIdeal.Payload.lean ====
/-
  The kernel body's one stored value, read at an index over the extended reals.

  Per 256-row chunk v8 of the entity tile and the resident 8 × 256 query block x0 the body forms the 8 × 256 × 256 array of
  differences x0[b, h] − v8[r, h] (each operand reshaped with a unit axis and broadcast along it), takes absolute values,
  sums over the last axis h, and subtracts the sum from the splat of 12 (the word 0x41400000). Read at (b, r) that is
  12 − Σ_h |x0[b, h] − v8[r, h]|: the score of query row b against the chunk's row r. The value at (b, r) mentions v8 only
  in row r.
-/
import proofs.«406659_j16879221473499_3_alg».proof.Proof.Gen.KernelIdeal.Skeleton
import proofs.«406659_j16879221473499_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-! ## The layout operations of the body, read at an index given by coordinates -/

section Layout
variable {α : Type}

/-- An `[a, b]` array cast to `[a, 1, b]` reads, at `(i, u, j)`, the operand at `(i, j)`, whatever the unit coordinate. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An array cast to its own shape reads the operand at the same index. -/
theorem shapeCast_self_apply {s : Shape} (x : s.Idx → α) (h : s.ShapeCasts s) (j : s.Idx) : shapeCast s x h j = x j :=
  shapeCast_apply x h j j rfl

/-- An `[a, 1, c]` array broadcast to `[a, b, c]` reads, at `(i, r, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (r : Fin b) (j : Fin c) :
    broadcastTo ⟨3, ![a, b, c]⟩ v h (ix3 i r j) = v (ix3 i (0 : Fin 1) j) := by
  refine broadcastTo_apply v h (ix3 i r j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(i, r, j)`, the operand at `(0, r, j)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (r : Fin b) (j : Fin c) :
    broadcastTo ⟨3, ![a, b, c]⟩ v h (ix3 i r j) = v (ix3 (0 : Fin 1) r j) := by
  refine broadcastTo_apply v h (ix3 i r j) (ix3 (0 : Fin 1) r j) fun ax => ?_
  match ax with
  | ⟨0, _⟩ => rfl
  | ⟨1, _⟩ =>
    show r.val = if b = 1 then 0 else r.val
    split
    · have := r.isLt; omega
    · rfl
  | ⟨2, _⟩ =>
    show j.val = if c = 1 then 0 else j.val
    split
    · have := j.isLt; omega
    · rfl

end Layout

/-! ## The body's value at an index -/

/-- The array of absolute differences the body sums: `|x0[b, h] − v8[r, h]|` at `(b, r, h)`. -/
def absDiff (x0 : Vec Ideal S8x256 .f32) (v8 : Vec Ideal S256x256 .f32) : FVec Ideal S8x256x256 .f32 :=
  absf (subf
    (broadcastTo S8x256x256
      (shapeCast S8x1x256 (shapeCast S8x256 x0 shapeCasts_S8x256_S8x256) shapeCasts_S8x256_S8x1x256)
      broadcasts_S8x1x256_S8x256x256)
    (broadcastTo S8x256x256 (shapeCast S1x256x256 v8 shapeCasts_S256x256_S1x256x256)
      broadcasts_S1x256x256_S8x256x256))

/-- The stored value is 12 less the sum of that array over its last axis. -/
theorem pay_eq (x0 : Vec Ideal S8x256 .f32) (v8 : Vec Ideal S256x256 .f32) :
    Gen.k0_pay1 (F := Ideal) x0 v8
      = subf (broadcast S8x256 (Scalar.ofBits (F := Ideal) .f32 0x41400000#32))
          (multiReduction .add [2] S8x256 (absDiff x0 v8) 0x00000000#32 reduces_S8x256x256_S8x256 (.inl rfl) rfl) := rfl

/-- The query block, reshaped and broadcast along the chunk's rows, at `(b, r, h)` is `x0[b, h]`. -/
theorem query_apply (x0 : Vec Ideal S8x256 .f32) (b : Fin 8) (r h : Fin 256) :
    broadcastTo S8x256x256
        (shapeCast S8x1x256 (shapeCast S8x256 x0 shapeCasts_S8x256_S8x256) shapeCasts_S8x256_S8x1x256)
        broadcasts_S8x1x256_S8x256x256 (ix3 b r h) = x0 (ix2 b h) :=
  (broadcastTo_a1c_abc_apply _ _ b r h).trans
    ((shapeCast_ab_a1b_apply _ _ b (0 : Fin 1) h).trans (shapeCast_self_apply x0 _ _))

/-- The chunk, reshaped and broadcast along the query rows, at `(b, r, h)` is `v8[r, h]`. -/
theorem chunk_apply (v8 : Vec Ideal S256x256 .f32) (b : Fin 8) (r h : Fin 256) :
    broadcastTo S8x256x256 (shapeCast S1x256x256 v8 shapeCasts_S256x256_S1x256x256)
        broadcasts_S1x256x256_S8x256x256 (ix3 b r h) = v8 (ix2 r h) :=
  (broadcastTo_1bc_abc_apply _ _ b r h).trans (shapeCast_ab_1ab_apply _ _ (0 : Fin 1) r h)

/-- The array of absolute differences at `(b, r, h)`. -/
theorem absDiff_apply (x0 : Vec Ideal S8x256 .f32) (v8 : Vec Ideal S256x256 .f32) (b : Fin 8) (r h : Fin 256) :
    absDiff x0 v8 (ix3 b r h) = FloatOps.absf (F := Ideal) (φ := .f32) (x0 (ix2 b h) - v8 (ix2 r h)) := by
  show FloatOps.absf (F := Ideal) (φ := .f32) (_ - _) = _
  rw [query_apply x0 b r h, chunk_apply v8 b r h]

/-- The source index over result index `(b, r)` with `h` on the summed axis is `(b, r, h)`. -/
theorem lift_ix (b : Fin 8) (r h : Fin 256) :
    reduces_S8x256x256_S8x256.lift (ix2 b r) h = ix3 b r h := by
  funext c
  match c with
  | ⟨0, _⟩ => exact Fin.ext rfl
  | ⟨1, _⟩ => exact Fin.ext rfl
  | ⟨2, _⟩ => exact Fin.ext rfl

/-- THE STORED VALUE AT `(b, r)`: 12 less the L1 distance of query row `b` from the chunk's row `r`. -/
theorem pay_apply (x0 : Vec Ideal S8x256 .f32) (v8 : Vec Ideal S256x256 .f32) (b : Fin 8) (r : Fin 256) :
    Gen.k0_pay1 (F := Ideal) x0 v8 (ix2 b r)
      = Ideal.ofBits .f32 0x41400000#32 - ∑ h : Fin 256, FloatOps.absf (F := Ideal) (φ := .f32) (x0 (ix2 b h) - v8 (ix2 r h)) := by
  rw [pay_eq]
  show Ideal.ofBits .f32 0x41400000#32
      - multiReduction .add [2] S8x256 (absDiff x0 v8) 0x00000000#32 reduces_S8x256x256_S8x256 (.inl rfl) rfl (ix2 b r) = _
  refine congrArg (fun t => Ideal.ofBits .f32 0x41400000#32 - t) ?_
  refine (Ideal.multiReduction_add_single (absDiff x0 v8) 0x00000000#32 reduces_S8x256x256_S8x256 (.inl rfl) rfl (ix2 b r)).trans ?_
  refine Finset.sum_congr rfl fun h _ => ?_
  exact (congrArg (absDiff x0 v8) (lift_ix b r h)).trans (absDiff_apply x0 v8 b r h)

/-- The value at `(b, r)` depends on the chunk only through its row `r`. -/
theorem pay_congr_row (x0 : Vec Ideal S8x256 .f32) (v8 v8' : Vec Ideal S256x256 .f32) (b : Fin 8) (r : Fin 256)
    (h : ∀ k : Fin 256, v8 (ix2 r k) = v8' (ix2 r k)) :
    Gen.k0_pay1 (F := Ideal) x0 v8 (ix2 b r) = Gen.k0_pay1 (F := Ideal) x0 v8' (ix2 b r) := by
  rw [pay_apply, pay_apply]
  refine congrArg (fun t => Ideal.ofBits .f32 0x41400000#32 - t) ?_
  exact Finset.sum_congr rfl fun k _ => by rw [h k]

end Cert.KernelIdeal.Payload

end
-- ==== Proof.KernelIdeal.TileIdeal.lean ====
/-
  The output tile over the extended reals, read at an index.

  The tile of scores is one function of the query block x0 (8 × 256) and the entity tile x1 (4096 × 256): column n is the
  stored value of the 256-row chunk that holds row n, read at that row's place n mod 256 in chunk n div 256. Since
  256 · (n div 256) + n mod 256 = n < 4096, the chunk's row there is row n of the tile itself, so entry (b, n) is
  12 − Σ_h |x0[b, h] − x1[n, h]|, and column n mentions x1 only in its row n.
-/
import proofs.«406659_j16879221473499_3_alg».proof.Proof.KernelIdeal.TileValue
import proofs.«406659_j16879221473499_3_alg».proof.Proof.KernelIdeal.Payload

noncomputable section

open scoped BigOperators

namespace Cert.KernelIdeal.Tile

open Cert.KernelIdeal Cert.KernelIdeal.Gen Idealize.ShloMosaic Idealize.ShloMosaic.ValueIdx

/-- Row `n mod 256` of chunk `n div 256` of an entity tile is the tile's row `n`. -/
theorem chunk_row (x1 : Vec Ideal S4096x256 .f32) (n : Fin 4096) (h : Fin 256) :
    chunk (F := Ideal) x1 (n.val / 256) (ix2 (⟨n.val % 256, Nat.mod_lt _ (by decide)⟩ : Fin 256) h) = x1 (ix2 n h) := by
  have hn : n.val < 4096 := n.isLt
  unfold chunk
  refine congrArg x1 (funext fun a => Fin.ext ?_)
  match a with
  | ⟨0, _⟩ =>
    show (256 * (n.val / 256) + n.val % 256) % 4096 = n.val
    omega
  | ⟨1, _⟩ => rfl

/-- Entry `(b, n)` of the tile is the stored value of chunk `n div 256` at `(b, n mod 256)`. -/
theorem tileFn_ix (x0 : Vec Ideal S8x256 .f32) (x1 : Vec Ideal S4096x256 .f32) (b : Fin 8) (n : Fin 4096) :
    tileFn (F := Ideal) x0 x1 (ix2 b n)
      = k0_pay1 (F := Ideal) x0 (chunk (F := Ideal) x1 (n.val / 256))
          (ix2 b (⟨n.val % 256, Nat.mod_lt _ (by decide)⟩ : Fin 256)) := rfl

/-- THE TILE AT `(b, n)`: 12 less the L1 distance of query row `b` from the entity tile's row `n`. -/
theorem tileFn_apply (x0 : Vec Ideal S8x256 .f32) (x1 : Vec Ideal S4096x256 .f32) (b : Fin 8) (n : Fin 4096) :
    tileFn (F := Ideal) x0 x1 (ix2 b n)
      = Ideal.ofBits .f32 0x41400000#32 - ∑ h : Fin 256, FloatOps.absf (F := Ideal) (φ := .f32) (x0 (ix2 b h) - x1 (ix2 n h)) := by
  refine (tileFn_ix x0 x1 b n).trans ((Payload.pay_apply x0 _ b _).trans ?_)
  refine congrArg (fun t => Ideal.ofBits .f32 0x41400000#32 - t) ?_
  refine Finset.sum_congr rfl fun h _ => ?_
  rw [chunk_row x1 n h]

/-- Column `n` of the tile depends on the entity tile only through its row `n`. -/
theorem tileFn_congr_row (x0 : Vec Ideal S8x256 .f32) (x1 x1' : Vec Ideal S4096x256 .f32) (b : Fin 8) (n : Fin 4096)
    (h : ∀ k : Fin 256, x1 (ix2 n k) = x1' (ix2 n k)) :
    tileFn (F := Ideal) x0 x1 (ix2 b n) = tileFn (F := Ideal) x0 x1' (ix2 b n) := by
  rw [tileFn_apply, tileFn_apply]
  refine congrArg (fun t => Ideal.ofBits .f32 0x41400000#32 - t) ?_
  exact Finset.sum_congr rfl fun k _ => by rw [h k]

end Cert.KernelIdeal.Tile

end
-- ==== Proof.KernelIdeal.Moved.lean ====
/-
  The columns of the output tile inside the score table do not read the entity tile past the entity table's end.

  The entity window (blocks of 4096 rows of the 100000 × 256 table, block index (t, 0)) and the output window (blocks of
  4096 columns of the 8 × 100000 score table, block index (0, t)) are cut at the same place on their long axis: both
  cuts are the cut of block t of size 4096 in an extent of 100000. On its short axis neither is cut. So the output
  window moves column n of its tile exactly when the entity window moves row n of its tile, every column of it; and
  column n of the tile of scores reads the entity tile in row n alone.
-/
import proofs.«406659_j16879221473499_3_alg».proof.Proof.KernelIdeal.TileValue
import proofs.«406659_j16879221473499_3_alg».proof.Proof.KernelIdeal.TileIdeal

set_option maxRecDepth 16384

noncomputable section

namespace Cert.KernelIdeal.Moved

open Cert.KernelIdeal Cert.KernelIdeal.Gen
open Idealize.ShloMosaic Idealize.ShloMosaic.ValueIdx

/-- The output window's cut along its columns is the entity window's cut along its rows. -/
theorem xsize_out_cols (i : grid0.Coords) : win0_2.xsize i 1 = win0_1.xsize i 0 := rfl

/-- The entity window is not cut along its columns. -/
theorem xsize_ent_cols (i : grid0.Coords) : win0_1.xsize i 1 = 256 := rfl

/-- A row the output window moves as a column is moved whole by the entity window. -/
theorem moved_row (i : grid0.Coords) (n : Fin 4096) (hn : n.val < win0_2.xsize i 1) (k : Fin 256) :
    win0_1.moved i (ix2 n k) = true :=
  (win0_1.moved_iff i (ix2 n k)).mpr fun a => by
    match a with
    | ⟨0, _⟩ => exact hn
    | ⟨1, _⟩ => exact k.isLt

/-- The columns of the output tile that lie inside the score table do not depend on what fills the entity tile past the
    entity table's end: column n of the tile reads row n of the entity tile alone, and the output window moves exactly
    the columns whose rows the entity window moves (both are cut at the same place, 100000 = 24·4096 + 1696). -/
theorem cut_tile (i : grid0.Coords) (x0 : Vec Ideal S8x256 .f32) (g : (win0_1.xblock i).Idx → Ideal .f32)
    (d d' : S4096x256.Idx → Ideal .f32) :
    win0_2.cut i (Tile.tileFn (F := Ideal) x0 (win0_1.fill i d g)) = win0_2.cut i (Tile.tileFn (F := Ideal) x0 (win0_1.fill i d' g)) := by
  funext j
  have hb : (j 0).val < 8 := Nat.lt_of_lt_of_le (j 0).isLt (win0_2.xsize_le i 0)
  have hn : (j 1).val < 4096 := Nat.lt_of_lt_of_le (j 1).isLt (win0_2.xsize_le i 1)
  have hx : win0_2.xinj i j = ix2 (⟨(j 0).val, hb⟩ : Fin 8) (⟨(j 1).val, hn⟩ : Fin 4096) := by
    funext a
    match a with
    | ⟨0, _⟩ => rfl
    | ⟨1, _⟩ => rfl
  have key : Tile.tileFn (F := Ideal) x0 (win0_1.fill i d g) (ix2 (⟨(j 0).val, hb⟩ : Fin 8) (⟨(j 1).val, hn⟩ : Fin 4096))
      = Tile.tileFn (F := Ideal) x0 (win0_1.fill i d' g) (ix2 (⟨(j 0).val, hb⟩ : Fin 8) (⟨(j 1).val, hn⟩ : Fin 4096)) :=
    Tile.tileFn_congr_row x0 _ _ _ _ fun k => by
      have hm := moved_row i ⟨(j 1).val, hn⟩ (j 1).isLt k
      unfold Pipeline.Window.fill
      rw [dif_pos hm, dif_pos hm]
  exact (congrArg (Tile.tileFn (F := Ideal) x0 (win0_1.fill i d g)) hx).trans
    (key.trans (congrArg (Tile.tileFn (F := Ideal) x0 (win0_1.fill i d' g)) hx).symm)

end Cert.KernelIdeal.Moved

end
-- ==== Proof.KernelIdeal.Data.lean ====
import proofs.«406659_j16879221473499_3_alg».proof.Proof.KernelIdeal.TileValue
import proofs.«406659_j16879221473499_3_alg».proof.Proof.KernelIdeal.Moved
import proofs.«406659_j16879221473499_3_alg».proof.Proof.Gen.KernelIdeal.Frame
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The query block: window 0's block, the whole 8 × 256 array of head-plus-relation rows, the same at every point. -/
abbrev qblk (c : Dev nD) (t : Fin cfg0.N) : Vec Ideal S8x256 .f32 := iblk m c 0 t

/-- The rows of the entity table that point `t`'s block holds inside the table: 4096 of them, 1696 at the last point. -/
abbrev erows (c : Dev nD) (t : Fin cfg0.N) : (win0_1.xblock (grid0.coords t)).Idx → Ideal .f32 := iblk m c 1 t

/-- The entity tile at point `t` as the proof data names it: those rows, and zeros past the table's end. -/
def etile (c : Dev nD) (t : Fin cfg0.N) : Vec Ideal S4096x256 .f32 :=
  win0_1.fill (grid0.coords t) (fun _ => (0 : EReal)) (erows m c t)

/-- The proof data of the one pipeline on core `c`: the arrays as the region finds them; after the body at point `t` the
    query block's buffer at the query block, the entity tile's at `etile`, the output tile's at the tile of scores of the
    two (on the columns inside the score table this does not depend on what fills the entity tile past the table's
    end: `Moved.cut_tile`); the class's invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => qblk m c t
    | ⟨1, _⟩ => etile m c t
    | ⟨2, _⟩ => Tile.tileFn (qblk m c t) (etile m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = etile m c t := by dsimp only [dats]
theorem after_2 (c : Dev nD) (t : Fin cfg0.N) :
    (dats m 0 c).after 2 t = Tile.tileFn (qblk m c t) (etile m c t) := by dsimp only [dats]

/-- The query block's buffer holds the query block at every point, fetched there or not. -/
theorem before_0 (c : Dev nD) (t : Fin cfg0.N) (d) : (dats m 0 c).before 0 t d = iblk m c 0 t :=
  before0_0_of m (dats m 0 c) (A_eq m c 0) (after_0 m c) t d

/-- The entity tile's buffer is fetched at every point: the block's rows inside the table, `d` past its end. -/
theorem before_1 (c : Dev nD) (t : Fin cfg0.N) (d) :
    (dats m 0 c).before 1 t d = win0_1.fill (grid0.coords t) d (erows m c t) := by
  rw [Dat.before_fetched _ 1 t (fetch0_1 t)]
  unfold Dat.fetched Dat.blockOf
  rw [A_eq]
  rfl

/-- The output tile's buffer was written back at the point before (or this is the first point): it holds anything. -/
theorem before_2 (c : Dev nD) (t : Fin cfg0.N) (d) : (dats m 0 c).before 2 t d = d :=
  Dat.before_out_reset _ 2 rfl t
    (by by_cases h : t.val = 0
        · exact Or.inl h
        · exact Or.inr ⟨h, flush0_2 _⟩) d

/-! ## The body obligation -/

/-- At every point the body, called on the three current staging buffers, leaves the query block and the entity tile as
    it found them and the output tile at the tile of scores; on the parts the transfers move these are the proof data's. -/
theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2, after_0, after_1, after_2]
  iapply (Tile.tileRun (F := Ideal) c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (qblk m c t) (win0_1.fill (grid0.coords t) d1 (erows m c t)) d2 Set.univ _)
  isplitl [H0]; · iexact H0
  isplitl [H1]; · iexact H1
  isplitl [H2]; · iexact H2
  rw [Tile.tileOut_eq]
  iintro ⟨H0, H1, H2⟩
  isplitl [HΦ]; · iexact HΦ
  isplitl [Ho]; · iexact Ho
  isplitl [H0]; · iexact H0
  isplitl [H1]
  · iexists win0_1.fill (grid0.coords t) d1 (erows m c t)
    rw [show win0_1.cut (grid0.coords t) (etile m c t) = erows m c t from win0_1.cut_fill _ _ _, win0_1.fill_fill]
    iexact H1
  · iexists Tile.tileFn (qblk m c t) (win0_1.fill (grid0.coords t) d1 (erows m c t))
    rw [show (win0 2).fill (grid0.coords t) (Tile.tileFn (qblk m c t) (win0_1.fill (grid0.coords t) d1 (erows m c t)))
          ((win0 2).cut (grid0.coords t) (Tile.tileFn (qblk m c t) (etile m c t)))
        = Tile.tileFn (qblk m c t) (win0_1.fill (grid0.coords t) d1 (erows m c t)) from
      win0_2.fill_congr_cut (grid0.coords t)
        (Moved.cut_tile (grid0.coords t) (qblk m c t) (erows m c t) d1 (fun _ => (0 : EReal)))]
    iexact H2

end Cert.KernelIdeal.Run

end
-- ==== Proof.KernelIdeal.Blocks.lean ====
/-
  The geometry of the pipeline's windows: which rows and columns of the tables each grid point's blocks hold.

  The grid has 25 points. At point t, window 1 holds rows 4096·t … of the 100000 × 256 table and window 2 holds columns
  4096·t … of the 8 × 100000 table, each through blocks 4096 long on that axis. 25 · 4096 = 102400 exceeds 100000, so
  the last block (t = 24) overhangs its table: only 100000 − 98304 = 1696 of its rows (columns) lie inside, and a transfer
  moves just those. In closed form the moved extent on the long axis is min 4096 (100000 − 4096·t) at every point.

  Stated here, for every float instance: the moved extents and block indices at each point (decided once over the 25
  points); a block read at an index of its moved part as a read of the table at row (column) 4096·t + that coordinate;
  that the output's blocks cover its table (column n lies in the block of point n / 4096), hence that the output table
  ends as any table whose block at every point is what that point wrote back; and what a write-back's cut and a fetch's
  fill do at a coordinate: a coordinate is moved iff its long-axis coordinate is below the moved extent, a fill puts the
  fetched value at every moved coordinate whatever was there before and leaves the rest, so two fills of one fetch agree
  on every moved row (column).
-/
import proofs.«406659_j16879221473499_3_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.ValueIdx
open Idealize.ShloMosaic.TcCoe Idealize.ShloMosaic.Rounds
open Idealize.ShloMosaic.Pipeline (Dat Cfg Window)

variable {F : FTy → Type} [FloatOps F]

/-- Decided once over the 25 grid points. -/
theorem grid_facts : ∀ t : Fin cfg0.N,
    (cfg0.win 1).xsize (grid0.coords t) (0 : Fin 2) = min 4096 (100000 - 4096 * t.val)
    ∧ (cfg0.win 1).xsize (grid0.coords t) (1 : Fin 2) = 256
    ∧ (cfg0.win 2).xsize (grid0.coords t) (0 : Fin 2) = 8
    ∧ (cfg0.win 2).xsize (grid0.coords t) (1 : Fin 2) = min 4096 (100000 - 4096 * t.val)
    ∧ (cfg0.win 1).index t (0 : Fin 2) = t.val
    ∧ (cfg0.win 1).index t (1 : Fin 2) = 0
    ∧ (cfg0.win 2).index t (0 : Fin 2) = 0
    ∧ (cfg0.win 2).index t (1 : Fin 2) = t.val :=
  (by decide +kernel : ∀ t : Fin grid0.N,
    win0_1.xsize (grid0.coords t) (0 : Fin 2) = min 4096 (100000 - 4096 * t.val)
    ∧ win0_1.xsize (grid0.coords t) (1 : Fin 2) = 256
    ∧ win0_2.xsize (grid0.coords t) (0 : Fin 2) = 8
    ∧ win0_2.xsize (grid0.coords t) (1 : Fin 2) = min 4096 (100000 - 4096 * t.val)
    ∧ win0_1.index t (0 : Fin 2) = t.val
    ∧ win0_1.index t (1 : Fin 2) = 0
    ∧ win0_2.index t (0 : Fin 2) = 0
    ∧ win0_2.index t (1 : Fin 2) = t.val)

theorem xsize1_0 (t : Fin cfg0.N) : (cfg0.win 1).xsize (grid0.coords t) (0 : Fin 2) = min 4096 (100000 - 4096 * t.val) := (grid_facts t).1
theorem xsize1_1 (t : Fin cfg0.N) : (cfg0.win 1).xsize (grid0.coords t) (1 : Fin 2) = 256 := (grid_facts t).2.1
theorem xsize2_0 (t : Fin cfg0.N) : (cfg0.win 2).xsize (grid0.coords t) (0 : Fin 2) = 8 := (grid_facts t).2.2.1
theorem xsize2_1 (t : Fin cfg0.N) : (cfg0.win 2).xsize (grid0.coords t) (1 : Fin 2) = min 4096 (100000 - 4096 * t.val) := (grid_facts t).2.2.2.1
theorem index1_0 (t : Fin cfg0.N) : (cfg0.win 1).index t (0 : Fin 2) = t.val := (grid_facts t).2.2.2.2.1
theorem index1_1 (t : Fin cfg0.N) : (cfg0.win 1).index t (1 : Fin 2) = 0 := (grid_facts t).2.2.2.2.2.1
theorem index2_0 (t : Fin cfg0.N) : (cfg0.win 2).index t (0 : Fin 2) = 0 := (grid_facts t).2.2.2.2.2.2.1
theorem index2_1 (t : Fin cfg0.N) : (cfg0.win 2).index t (1 : Fin 2) = t.val := (grid_facts t).2.2.2.2.2.2.2

theorem xsize1 (t : Fin cfg0.N) : (cfg0.win 1).xsize (grid0.coords t) = ![min 4096 (100000 - 4096 * t.val), 256] := by
  funext a
  match a with
  | ⟨0, _⟩ => exact xsize1_0 t
  | ⟨1, _⟩ => exact xsize1_1 t
theorem xsize2 (t : Fin cfg0.N) : (cfg0.win 2).xsize (grid0.coords t) = ![8, min 4096 (100000 - 4096 * t.val)] := by
  funext a
  match a with
  | ⟨0, _⟩ => exact xsize2_0 t
  | ⟨1, _⟩ => exact xsize2_1 t

/-- A point of the grid is below 25. -/
theorem t_lt (t : Fin cfg0.N) : t.val < 25 := Nat.lt_of_lt_of_eq t.isLt N_0

theorem row1_lt (t : Fin cfg0.N) (j : ((cfg0.win 1).xblock (grid0.coords t)).Idx) : 4096 * t.val + (j 0).val < 100000 := by
  have h : (j 0).val < (cfg0.win 1).xsize (grid0.coords t) (0 : Fin 2) := (j 0).isLt
  rw [xsize1_0] at h
  omega
theorem col1_lt (t : Fin cfg0.N) (j : ((cfg0.win 1).xblock (grid0.coords t)).Idx) : (j 1).val < 256 := by
  have h : (j 1).val < (cfg0.win 1).xsize (grid0.coords t) (1 : Fin 2) := (j 1).isLt
  rw [xsize1_1] at h
  exact h

theorem read1 (t : Fin cfg0.N) (A : S100000x256.Idx → Elt F .f32) (j : ((cfg0.win 1).xblock (grid0.coords t)).Idx) :
    ((cfg0.win 1).blk t).view.read (Elt F) A j
      = A (ix2 ⟨4096 * t.val + (j 0).val, row1_lt t j⟩ ⟨(j 1).val, col1_lt t j⟩) := by
  show A (((cfg0.win 1).blk t).view.emb j) = _
  refine congrArg A ?_
  funext a; apply Fin.ext
  match a with
  | ⟨0, _⟩ =>
    show win0_1.index t (0 : Fin 2) * 4096 + 1 * (j 0).val = 4096 * t.val + (j 0).val
    rw [show win0_1.index t (0 : Fin 2) = t.val from index1_0 t]; omega
  | ⟨1, _⟩ =>
    show win0_1.index t (1 : Fin 2) * 256 + 1 * (j 1).val = (j 1).val
    rw [show win0_1.index t (1 : Fin 2) = 0 from index1_1 t]; omega

theorem row2_lt (t : Fin cfg0.N) (j : ((cfg0.win 2).xblock (grid0.coords t)).Idx) : (j 0).val < 8 := by
  have h : (j 0).val < (cfg0.win 2).xsize (grid0.coords t) (0 : Fin 2) := (j 0).isLt
  rw [xsize2_0] at h
  exact h
theorem col2_lt (t : Fin cfg0.N) (j : ((cfg0.win 2).xblock (grid0.coords t)).Idx) : 4096 * t.val + (j 1).val < 100000 := by
  have h : (j 1).val < (cfg0.win 2).xsize (grid0.coords t) (1 : Fin 2) := (j 1).isLt
  rw [xsize2_1] at h
  omega

theorem read2 (t : Fin cfg0.N) (G : S8x100000.Idx → Elt F .f32) (j : ((cfg0.win 2).xblock (grid0.coords t)).Idx) :
    ((cfg0.win 2).blk t).view.read (Elt F) G j
      = G (ix2 ⟨(j 0).val, row2_lt t j⟩ ⟨4096 * t.val + (j 1).val, col2_lt t j⟩) := by
  show G (((cfg0.win 2).blk t).view.emb j) = _
  refine congrArg G ?_
  funext a; apply Fin.ext
  match a with
  | ⟨0, _⟩ =>
    show win0_2.index t (0 : Fin 2) * 8 + 1 * (j 0).val = (j 0).val
    rw [show win0_2.index t (0 : Fin 2) = 0 from index2_0 t]; omega
  | ⟨1, _⟩ =>
    show win0_2.index t (1 : Fin 2) * 4096 + 1 * (j 1).val = 4096 * t.val + (j 1).val
    rw [show win0_2.index t (1 : Fin 2) = t.val from index2_1 t]; omega

/-- An index of the output array is in point t's block iff, on each axis, it lies among the coordinates the block holds
    inside the array. -/
theorem mem_blk2 (t : Fin cfg0.N) (i : S8x100000.Idx) :
    i ∈ ((cfg0.win 2).blk t).view.set
      ↔ ∀ a : Fin 2, win0_2.index t a * S8x4096.size a ≤ (i a).val
          ∧ (i a).val < win0_2.index t a * S8x4096.size a + win0_2.xsize (grid0.coords t) a := by
  show i ∈ ((View.whole main_v19).slice (win0_2.rect t)).set ↔ _
  rw [View.set_slice_whole, Rect.mem_set_unit]
  exact Iff.rfl

/-- Column n of the output array lies in the block of point n / 4096. -/
theorem cover2 : ∀ i : S8x100000.Idx, ∃ t : Fin cfg0.N, (cfg0.win 2).flush t = true ∧ i ∈ ((cfg0.win 2).blk t).view.set := by
  intro i
  have hi0 : (i 0).val < 8 := (i 0).isLt
  have hi1 : (i 1).val < 100000 := (i 1).isLt
  have hq : (i 1).val / 4096 < cfg0.N := Nat.lt_of_lt_of_eq (by omega : (i 1).val / 4096 < 25) N_0.symm
  refine ⟨⟨(i 1).val / 4096, hq⟩, flush0_2 _, ?_⟩
  rw [mem_blk2]
  intro a
  match a with
  | ⟨0, _⟩ =>
    show win0_2.index ⟨(i 1).val / 4096, hq⟩ (0 : Fin 2) * 8 ≤ (i 0).val
      ∧ (i 0).val < win0_2.index ⟨(i 1).val / 4096, hq⟩ (0 : Fin 2) * 8 + win0_2.xsize (grid0.coords ⟨(i 1).val / 4096, hq⟩) (0 : Fin 2)
    rw [show win0_2.index ⟨(i 1).val / 4096, hq⟩ (0 : Fin 2) = 0 from index2_0 _,
      show win0_2.xsize (grid0.coords ⟨(i 1).val / 4096, hq⟩) (0 : Fin 2) = 8 from xsize2_0 _]
    omega
  | ⟨1, _⟩ =>
    show win0_2.index ⟨(i 1).val / 4096, hq⟩ (1 : Fin 2) * 4096 ≤ (i 1).val
      ∧ (i 1).val < win0_2.index ⟨(i 1).val / 4096, hq⟩ (1 : Fin 2) * 4096 + win0_2.xsize (grid0.coords ⟨(i 1).val / 4096, hq⟩) (1 : Fin 2)
    rw [show win0_2.index ⟨(i 1).val / 4096, hq⟩ (1 : Fin 2) = (i 1).val / 4096 from index2_1 _,
      show win0_2.xsize (grid0.coords ⟨(i 1).val / 4096, hq⟩) (1 : Fin 2) = min 4096 (100000 - 4096 * ((i 1).val / 4096)) from xsize2_1 _]
    omega

/-- The output array after the run is any table whose block at every point is what that point wrote back. -/
theorem table_of_blocks (c : Dev nD) (dat : Pipeline.Dat τ (Elt F) Unit ℕ (UR sig nD τ) ℕ cfg0 c)
    (G : Buf (Elt F) ((cfg0.win 2).arr.view.loc (c.tc : Thread nD τ)))
    (hG : ∀ t, dat.flushed 2 t = ((cfg0.win 2).blk t).view.read (Elt F) G) : dat.arrAt 2 cfg0.N = G :=
  dat.arrAt_eq_of_cover 2 G (fun t _ => hG t) cover2

/-! ## What a transfer moves: the cut of a staging buffer, and a fetch's fill of it -/

/-- The index of the moved part of window 1's block at point t with row r and column k: the row is among the rows the
    block holds inside the table. -/
def xidx1 (t : Fin cfg0.N) (r k : ℕ) (hr : r < min 4096 (100000 - 4096 * t.val)) (hk : k < 256) :
    ((cfg0.win 1).xblock (grid0.coords t)).Idx :=
  fun a => match a with
    | ⟨0, _⟩ => ⟨r, Nat.lt_of_lt_of_eq hr (xsize1_0 t).symm⟩
    | ⟨1, _⟩ => ⟨k, Nat.lt_of_lt_of_eq hk (xsize1_1 t).symm⟩

/-- The index of the moved part of window 2's block at point t with row r and column k: the column is among the columns
    the block holds inside the table. -/
def xidx2 (t : Fin cfg0.N) (r k : ℕ) (hr : r < 8) (hk : k < min 4096 (100000 - 4096 * t.val)) :
    ((cfg0.win 2).xblock (grid0.coords t)).Idx :=
  fun a => match a with
    | ⟨0, _⟩ => ⟨r, Nat.lt_of_lt_of_eq hr (xsize2_0 t).symm⟩
    | ⟨1, _⟩ => ⟨k, Nat.lt_of_lt_of_eq hk (xsize2_1 t).symm⟩

theorem xidx1_0 (t : Fin cfg0.N) (r k : ℕ) (hr hk) : ((xidx1 t r k hr hk) 0).val = r := rfl
theorem xidx1_1 (t : Fin cfg0.N) (r k : ℕ) (hr hk) : ((xidx1 t r k hr hk) 1).val = k := rfl
theorem xidx2_0 (t : Fin cfg0.N) (r k : ℕ) (hr hk) : ((xidx2 t r k hr hk) 0).val = r := rfl
theorem xidx2_1 (t : Fin cfg0.N) (r k : ℕ) (hr hk) : ((xidx2 t r k hr hk) 1).val = k := rfl

theorem xrow1_lt (t : Fin cfg0.N) (j : ((cfg0.win 1).xblock (grid0.coords t)).Idx) : (j 0).val < 4096 := by
  have h : (j 0).val < (cfg0.win 1).xsize (grid0.coords t) (0 : Fin 2) := (j 0).isLt
  rw [xsize1_0] at h
  omega
theorem xrow1_lt_min (t : Fin cfg0.N) (j : ((cfg0.win 1).xblock (grid0.coords t)).Idx) :
    (j 0).val < min 4096 (100000 - 4096 * t.val) := by
  have h : (j 0).val < (cfg0.win 1).xsize (grid0.coords t) (0 : Fin 2) := (j 0).isLt
  rw [xsize1_0] at h
  exact h
theorem xcol2_lt (t : Fin cfg0.N) (j : ((cfg0.win 2).xblock (grid0.coords t)).Idx) : (j 1).val < 4096 := by
  have h : (j 1).val < (cfg0.win 2).xsize (grid0.coords t) (1 : Fin 2) := (j 1).isLt
  rw [xsize2_1] at h
  omega
theorem xcol2_lt_min (t : Fin cfg0.N) (j : ((cfg0.win 2).xblock (grid0.coords t)).Idx) :
    (j 1).val < min 4096 (100000 - 4096 * t.val) := by
  have h : (j 1).val < (cfg0.win 2).xsize (grid0.coords t) (1 : Fin 2) := (j 1).isLt
  rw [xsize2_1] at h
  exact h

/-- The block's index of an index of its moved part has the same coordinates. -/
theorem xinj1 (t : Fin cfg0.N) (j : ((cfg0.win 1).xblock (grid0.coords t)).Idx) :
    (cfg0.win 1).xinj (grid0.coords t) j = ix2 ⟨(j 0).val, xrow1_lt t j⟩ ⟨(j 1).val, col1_lt t j⟩ := by
  funext a
  match a with
  | ⟨0, _⟩ => rfl
  | ⟨1, _⟩ => rfl
theorem xinj2 (t : Fin cfg0.N) (j : ((cfg0.win 2).xblock (grid0.coords t)).Idx) :
    (cfg0.win 2).xinj (grid0.coords t) j = ix2 ⟨(j 0).val, row2_lt t j⟩ ⟨(j 1).val, xcol2_lt t j⟩ := by
  funext a
  match a with
  | ⟨0, _⟩ => rfl
  | ⟨1, _⟩ => rfl

/-- What a write-back of window 1's (2's) staging contents X moves, at a coordinate: X there. -/
theorem cut1 {α : Type} (t : Fin cfg0.N) (X : S4096x256.Idx → α) (j : ((cfg0.win 1).xblock (grid0.coords t)).Idx) :
    (cfg0.win 1).cut (grid0.coords t) X j = X (ix2 ⟨(j 0).val, xrow1_lt t j⟩ ⟨(j 1).val, col1_lt t j⟩) :=
  congrArg X (xinj1 t j)
theorem cut2 {α : Type} (t : Fin cfg0.N) (X : S8x4096.Idx → α) (j : ((cfg0.win 2).xblock (grid0.coords t)).Idx) :
    (cfg0.win 2).cut (grid0.coords t) X j = X (ix2 ⟨(j 0).val, row2_lt t j⟩ ⟨(j 1).val, xcol2_lt t j⟩) :=
  congrArg X (xinj2 t j)

/-- A row of window 1's block is moved at point t iff it is among the block's rows inside the table, whatever the column. -/
theorem moved1_iff (t : Fin cfg0.N) (r : Fin 4096) (k : Fin 256) :
    (cfg0.win 1).moved (grid0.coords t) (ix2 r k) = true ↔ r.val < min 4096 (100000 - 4096 * t.val) := by
  rw [Window.moved_iff]
  constructor
  · intro h
    have h0 : r.val < (cfg0.win 1).xsize (grid0.coords t) (0 : Fin 2) := h 0
    rw [xsize1_0] at h0
    exact h0
  · intro h a
    match a with
    | ⟨0, _⟩ =>
      show r.val < (cfg0.win 1).xsize (grid0.coords t) (0 : Fin 2)
      rw [xsize1_0]; exact h
    | ⟨1, _⟩ =>
      show k.val < (cfg0.win 1).xsize (grid0.coords t) (1 : Fin 2)
      rw [xsize1_1]; exact k.isLt
/-- A column of window 2's block is moved at point t iff it is among the block's columns inside the table, whatever the row. -/
theorem moved2_iff (t : Fin cfg0.N) (r : Fin 8) (k : Fin 4096) :
    (cfg0.win 2).moved (grid0.coords t) (ix2 r k) = true ↔ k.val < min 4096 (100000 - 4096 * t.val) := by
  rw [Window.moved_iff]
  constructor
  · intro h
    have h1 : k.val < (cfg0.win 2).xsize (grid0.coords t) (1 : Fin 2) := h 1
    rw [xsize2_1] at h1
    exact h1
  · intro h a
    match a with
    | ⟨0, _⟩ =>
      show r.val < (cfg0.win 2).xsize (grid0.coords t) (0 : Fin 2)
      rw [xsize2_0]; exact r.isLt
    | ⟨1, _⟩ =>
      show k.val < (cfg0.win 2).xsize (grid0.coords t) (1 : Fin 2)
      rw [xsize2_1]; exact h

/-- A fetch's fill of window 1's staging contents, at a moved row: what was fetched, whatever was there. -/
theorem fill1_moved {α : Type} (t : Fin cfg0.N) (d : S4096x256.Idx → α) (g : ((cfg0.win 1).xblock (grid0.coords t)).Idx → α)
    (r : Fin 4096) (k : Fin 256) (hr : r.val < min 4096 (100000 - 4096 * t.val)) :
    (cfg0.win 1).fill (grid0.coords t) d g (ix2 r k) = g (xidx1 t r.val k.val hr k.isLt) := by
  have e : ix2 r k = (cfg0.win 1).xinj (grid0.coords t) (xidx1 t r.val k.val hr k.isLt) := by
    funext a
    match a with
    | ⟨0, _⟩ => rfl
    | ⟨1, _⟩ => rfl
  exact (congrArg ((cfg0.win 1).fill (grid0.coords t) d g) e).trans (Window.fill_xinj _ _ _ _ _)
/-- At a row past the table's end: what was there. -/
theorem fill1_not_moved {α : Type} (t : Fin cfg0.N) (d : S4096x256.Idx → α) (g : ((cfg0.win 1).xblock (grid0.coords t)).Idx → α)
    (r : Fin 4096) (k : Fin 256) (hr : ¬ r.val < min 4096 (100000 - 4096 * t.val)) :
    (cfg0.win 1).fill (grid0.coords t) d g (ix2 r k) = d (ix2 r k) :=
  Window.fill_of_not_moved _ _ _ _ (fun h => hr ((moved1_iff t r k).mp h))
/-- Two fills of one fetch agree on every moved row. -/
theorem fill1_congr_moved {α : Type} (t : Fin cfg0.N) (d d' : S4096x256.Idx → α) (g : ((cfg0.win 1).xblock (grid0.coords t)).Idx → α)
    (r : Fin 4096) (k : Fin 256) (hr : r.val < min 4096 (100000 - 4096 * t.val)) :
    (cfg0.win 1).fill (grid0.coords t) d g (ix2 r k) = (cfg0.win 1).fill (grid0.coords t) d' g (ix2 r k) :=
  (fill1_moved t d g r k hr).trans (fill1_moved t d' g r k hr).symm

/-- The same for window 2, the axes exchanged. -/
theorem fill2_moved {α : Type} (t : Fin cfg0.N) (d : S8x4096.Idx → α) (g : ((cfg0.win 2).xblock (grid0.coords t)).Idx → α)
    (r : Fin 8) (k : Fin 4096) (hk : k.val < min 4096 (100000 - 4096 * t.val)) :
    (cfg0.win 2).fill (grid0.coords t) d g (ix2 r k) = g (xidx2 t r.val k.val r.isLt hk) := by
  have e : ix2 r k = (cfg0.win 2).xinj (grid0.coords t) (xidx2 t r.val k.val r.isLt hk) := by
    funext a
    match a with
    | ⟨0, _⟩ => rfl
    | ⟨1, _⟩ => rfl
  exact (congrArg ((cfg0.win 2).fill (grid0.coords t) d g) e).trans (Window.fill_xinj _ _ _ _ _)
theorem fill2_not_moved {α : Type} (t : Fin cfg0.N) (d : S8x4096.Idx → α) (g : ((cfg0.win 2).xblock (grid0.coords t)).Idx → α)
    (r : Fin 8) (k : Fin 4096) (hk : ¬ k.val < min 4096 (100000 - 4096 * t.val)) :
    (cfg0.win 2).fill (grid0.coords t) d g (ix2 r k) = d (ix2 r k) :=
  Window.fill_of_not_moved _ _ _ _ (fun h => hk ((moved2_iff t r k).mp h))
theorem fill2_congr_moved {α : Type} (t : Fin cfg0.N) (d d' : S8x4096.Idx → α) (g : ((cfg0.win 2).xblock (grid0.coords t)).Idx → α)
    (r : Fin 8) (k : Fin 4096) (hk : k.val < min 4096 (100000 - 4096 * t.val)) :
    (cfg0.win 2).fill (grid0.coords t) d g (ix2 r k) = (cfg0.win 2).fill (grid0.coords t) d' g (ix2 r k) :=
  (fill2_moved t d g r k hk).trans (fill2_moved t d' g r k hk).symm

/-- A staging buffer of window 1 just filled by the fetch at point t holds, at a moved row r, row 4096 t + r of the table. -/
theorem fill1_read (t : Fin cfg0.N) (d : S4096x256.Idx → Elt F .f32) (A : S100000x256.Idx → Elt F .f32)
    (r : Fin 4096) (k : Fin 256) (hr : r.val < min 4096 (100000 - 4096 * t.val)) :
    (cfg0.win 1).fill (grid0.coords t) d (((cfg0.win 1).blk t).view.read (Elt F) A) (ix2 r k)
      = A (ix2 ⟨4096 * t.val + r.val, by omega⟩ ⟨k.val, k.isLt⟩) :=
  (fill1_moved t d _ r k hr).trans (read1 t A _)
/-- Block t of the output table read at a moved column k is the table's column 4096 t + k. -/
theorem read2_xidx (t : Fin cfg0.N) (G : S8x100000.Idx → Elt F .f32) (r : Fin 8) (k : Fin 4096)
    (hk : k.val < min 4096 (100000 - 4096 * t.val)) :
    ((cfg0.win 2).blk t).view.read (Elt F) G (xidx2 t r.val k.val r.isLt hk)
      = G (ix2 ⟨r.val, r.isLt⟩ ⟨4096 * t.val + k.val, by omega⟩) :=
  read2 t G _

end Cert.KernelIdeal.Blocks

end
-- ==== Proof.KernelIdeal.Table.lean ====
import proofs.«406659_j16879221473499_3_alg».proof.Proof.KernelIdeal.Data
import proofs.«406659_j16879221473499_3_alg».proof.Proof.KernelIdeal.TileIdeal
import proofs.«406659_j16879221473499_3_alg».proof.Proof.KernelIdeal.Blocks
import proofs.«406659_j16879221473499_3_alg».proof.Proof.Spec

set_option maxRecDepth 16384

noncomputable section

namespace Cert.KernelIdeal.Run

open Cert.KernelIdeal Cert.KernelIdeal.Gen Cert.KernelIdeal.Blocks
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-! ## The run -/

set_option backward.isDefEq.respectTransparency.types false in
/-- Every weakly fair execution of @main terminates without a fault; every array of the pipeline ends at what the proof
    data computes after the last write-back, and every other unscoped buffer at what the host lines after the region
    make of the region's result. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl)

/-- The idealized kernel's frame: it runs, and its four argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-! ## The dense table of scores -/

/-- The query rows as the region finds them, and the entity table as launched. -/
abbrev hrows (c : Dev nD) : Cert.Spec.SH.Idx → EReal := V m c main_v18
abbrev etab (c : Dev nD) : Cert.Spec.SE.Idx → EReal := m ((c : Thread nD τ).loc main_arg0)

/-- Window 0's block is the whole array of query rows, at every point. -/
theorem idx0_facts : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

theorem qblk_apply (c : Dev nD) (t : Fin cfg0.N) (b : Fin 8) (h : Fin 256) :
    qblk m c t (ix2 b h) = hrows m c (ix2 b h) := by
  show V m c main_v18 (((cfg0.win 0).blk t).view.emb (ix2 b h)) = V m c main_v18 (ix2 b h)
  refine congrArg (V m c main_v18) (funext fun a => Fin.ext ?_)
  have hf := idx0_facts t
  match a with
  | ⟨0, _⟩ =>
    show win0_0.index t (0 : Fin 2) * 8 + 1 * b.val = b.val
    rw [hf.1]; omega
  | ⟨1, _⟩ =>
    show win0_0.index t (1 : Fin 2) * 256 + 1 * h.val = h.val
    rw [hf.2]; omega

/-- A row of the entity tile that lies inside the table is that row of the table. -/
theorem etile_apply (c : Dev nD) (t : Fin cfg0.N) (r : Fin 4096) (k : Fin 256)
    (hr : r.val < min 4096 (100000 - 4096 * t.val)) :
    etile m c t (ix2 r k) = etab m c (ix2 ⟨4096 * t.val + r.val, by have := t_lt t; omega⟩ ⟨k.val, k.isLt⟩) := by
  unfold etile
  show (cfg0.win 1).fill (grid0.coords t) (fun _ => (0 : EReal)) (iblk m c 1 t) (ix2 r k) = _
  unfold iblk
  refine (fill1_read (F := Ideal) t (fun _ => (0 : EReal)) (V m c (Pipeline.arrRef spec0 1)) r k hr).trans ?_
  exact congrFun (V_main_arg0 m c) _

/-- What point `t` writes back — the columns of its tile of scores that lie inside the score table — is the dense
    table's block there: score (b, 4096·t + n) is γ less the L1 distance of query row b to entity row 4096·t + n. -/
theorem flushed_eq (c : Dev nD) (t : Fin cfg0.N) :
    (dats m 0 c).flushed 2 t = ((cfg0.win 2).blk t).view.read (Elt Ideal) (Cert.Spec.table (hrows m c) (etab m c)) := by
  funext j
  show (cfg0.win 2).cut (grid0.coords t) ((dats m 0 c).after 2 t) j = _
  rw [after_2, cut2, read2, Tile.tileFn_apply]
  unfold Cert.Spec.table Cert.Spec.scoreAt
  refine congrArg (fun s => Ideal.ofBits .f32 0x41400000#32 - s) (Finset.sum_congr rfl fun h _ => ?_)
  rw [qblk_apply, etile_apply m c t _ h (xcol2_lt_min t j)]

/-- THE TABLE: after the region the output array holds the dense table of scores of the query rows against the whole
    entity table. -/
theorem table_eq (c : Dev nD) : (dats m 0 c).arrAt 2 cfg0.N = Cert.Spec.table (hrows m c) (etab m c) :=
  table_of_blocks c (dats m 0 c) _ (flushed_eq m c)

end Cert.KernelIdeal.Run

end
-- ==== Proof.KernelIdeal.TailOps.lean ====
/-
  The host lines after the region, respelled, and what they compute.

  The twenty-two lines that follow the region are printed through builders over references that carry the type of the
  tensor value they hold; such a builder is the untyped one with its function moved between the carried type and the
  buffer's own type along an equation of types. At a literal reference that equation is a reflexivity and the move is the
  identity, so each line IS the untyped line at the same buffers and the same function. Here: the list through the untyped
  builders (`ops1`), the equation of the two lists, line by line — every function named, none applied —, and from it the
  last buffer's contents after the lines as ONE function `takeAlong` of the table buffer and the candidates' buffer: each
  line's result at its own buffer is its function's value, at any other buffer what was there.
-/
import proofs.«406659_j16879221473499_3_alg».proof.Proof.Gen.KernelIdeal.Launch
import Idealize.ShloMosaic.Lib.StableHlo.Run
import Idealize.ShloMosaic.PureOps.Ideal

noncomputable section

namespace Cert.KernelIdeal.TailOps

open Cert.KernelIdeal Cert.KernelIdeal.Gen Idealize.ShloMosaic Idealize.ShloMosaic.TcCoe

variable {F : FTy → Type} [FloatOps F]

/-! ## The typed builders at literal references are the untyped ones -/

/-- A two-operand line through typed references whose carried types are the buffers' own is the untyped line: the
    transport of contents along an equation that is a reflexivity is the identity. Stated for ANY function, so that it
    is cited at a function without that function being unfolded. -/
theorem binary_of (a b y : Ref sig .tc)
    (ha : a.space ≠ .host ∧ (a : DevRef τ sig).isScoped = false) (hb : b.space ≠ .host ∧ (b : DevRef τ sig).isScoped = false)
    (hy : y.space ≠ .host ∧ (y : DevRef τ sig).isScoped = false)
    (f : a.ty.Contents (Elt F) → b.ty.Contents (Elt F) → y.ty.Contents (Elt F)) :
    StableHlo.TRef.binary (τ := τ) (⟨a, rfl, ha.1, ha.2⟩ : StableHlo.TRef sig a.ty) (⟨b, rfl, hb.1, hb.2⟩ : StableHlo.TRef sig b.ty)
        (⟨y, rfl, hy.1, hy.2⟩ : StableHlo.TRef sig y.ty) f
      = StableHlo.binary a b y f ha hb hy := rfl

/-! ## The twenty-two lines after the region, through the untyped builders -/

/-- The host lines after the region, each through the untyped builder of its operand count, at the same buffers and
    the same functions. -/
def ops1 : List (HloOp τ sig (Elt F)) :=
  [ StableHlo.nullary main_call0_c (constantI S_ 32 0#32 : (⟨S_, .i32⟩ : BufTy).Contents (Elt F)),
    StableHlo.unary main_call0_c main_call0_v0 (broadcastInDim S8x100000 ![] Gen.bcast_S_S8x100000 : (⟨S_, .i32⟩ : BufTy).Contents (Elt F) → (⟨S8x100000, .i32⟩ : BufTy).Contents (Elt F)),
    StableHlo.binary main_arg3 main_call0_v0 main_call0_v1 (cmpi .slt : (⟨S8x100000, .i32⟩ : BufTy).Contents (Elt F) → (⟨S8x100000, .i32⟩ : BufTy).Contents (Elt F) → (⟨S8x100000, .i1⟩ : BufTy).Contents (Elt F)),
    StableHlo.nullary main_call0_c_0 (constantI S_ 32 100000#32 : (⟨S_, .i32⟩ : BufTy).Contents (Elt F)),
    StableHlo.unary main_call0_c_0 main_call0_v2 (broadcastInDim S8x100000 ![] Gen.bcast_S_S8x100000 : (⟨S_, .i32⟩ : BufTy).Contents (Elt F) → (⟨S8x100000, .i32⟩ : BufTy).Contents (Elt F)),
    StableHlo.binary main_arg3 main_call0_v2 main_call0_v3 (addi : (⟨S8x100000, .i32⟩ : BufTy).Contents (Elt F) → (⟨S8x100000, .i32⟩ : BufTy).Contents (Elt F) → (⟨S8x100000, .i32⟩ : BufTy).Contents (Elt F)),
    StableHlo.ternary main_call0_v1 main_call0_v3 main_arg3 main_call0_v4 (select : (⟨S8x100000, .i1⟩ : BufTy).Contents (Elt F) → (⟨S8x100000, .i32⟩ : BufTy).Contents (Elt F) → (⟨S8x100000, .i32⟩ : BufTy).Contents (Elt F) → (⟨S8x100000, .i32⟩ : BufTy).Contents (Elt F)),
    StableHlo.reshape main_call0_v4 main_call0_v5 rfl Gen.shapeCasts_S8x100000_S8x100000x1,
    StableHlo.nullary main_call0_c_1 (constantI S1 32 99999#32 : (⟨S1, .i32⟩ : BufTy).Contents (Elt F)),
    StableHlo.nullary main_call0_c_2 (constantI S_ 32 0#32 : (⟨S_, .i32⟩ : BufTy).Contents (Elt F)),
    StableHlo.unary main_call0_c_2 main_call0_v6 (broadcastInDim S8x100000x1 ![] Gen.bcast_S_S8x100000x1 : (⟨S_, .i32⟩ : BufTy).Contents (Elt F) → (⟨S8x100000x1, .i32⟩ : BufTy).Contents (Elt F)),
    StableHlo.binary main_call0_v5 main_call0_v6 main_call0_v7 (cmpi .sge : (⟨S8x100000x1, .i32⟩ : BufTy).Contents (Elt F) → (⟨S8x100000x1, .i32⟩ : BufTy).Contents (Elt F) → (⟨S8x100000x1, .i1⟩ : BufTy).Contents (Elt F)),
    StableHlo.unary main_call0_c_1 main_call0_v8 (broadcastInDim S1x1x1 ![2] Gen.bcast_S1_S1x1x1_2 : (⟨S1, .i32⟩ : BufTy).Contents (Elt F) → (⟨S1x1x1, .i32⟩ : BufTy).Contents (Elt F)),
    StableHlo.unary main_call0_v8 main_call0_v9 (broadcastInDim S8x100000x1 ![0, 1, 2] Gen.bcast_S1x1x1_S8x100000x1_0_1_2 : (⟨S1x1x1, .i32⟩ : BufTy).Contents (Elt F) → (⟨S8x100000x1, .i32⟩ : BufTy).Contents (Elt F)),
    StableHlo.binary main_call0_v5 main_call0_v9 main_call0_v10 (cmpi .sle : (⟨S8x100000x1, .i32⟩ : BufTy).Contents (Elt F) → (⟨S8x100000x1, .i32⟩ : BufTy).Contents (Elt F) → (⟨S8x100000x1, .i1⟩ : BufTy).Contents (Elt F)),
    StableHlo.binary main_call0_v7 main_call0_v10 main_call0_v11 (andi : (⟨S8x100000x1, .i1⟩ : BufTy).Contents (Elt F) → (⟨S8x100000x1, .i1⟩ : BufTy).Contents (Elt F) → (⟨S8x100000x1, .i1⟩ : BufTy).Contents (Elt F)),
    StableHlo.nullary main_call0_c_3 (constantI S_ 1 1#1 : (⟨S_, .i1⟩ : BufTy).Contents (Elt F)),
    StableHlo.binary main_call0_v11 main_call0_c_3 main_call0_v12 ((fun x v => Host.reduce IntOp.andi x v Gen.reducesTo_S8x100000x1_S8x100000_d2 Gen.h_S_) : (⟨S8x100000x1, .i1⟩ : BufTy).Contents (Elt F) → (⟨S_, .i1⟩ : BufTy).Contents (Elt F) → (⟨S8x100000, .i1⟩ : BufTy).Contents (Elt F)),
    StableHlo.binary main_v19 main_call0_v5 main_call0_v13 ((fun x i => Host.gather gather_S8x100000_S8x100000x1_S8x100000_n_1_0_0_1_2_11 x i) : (⟨S8x100000, .f32⟩ : BufTy).Contents (Elt F) → (⟨S8x100000x1, .i32⟩ : BufTy).Contents (Elt F) → (⟨S8x100000, .f32⟩ : BufTy).Contents (Elt F)),
    StableHlo.nullary main_call0_cst (constant S_ .f32 0x7FC00000#32 : (⟨S_, .f32⟩ : BufTy).Contents (Elt F)),
    StableHlo.unary main_call0_cst main_call0_v14 (broadcastInDim S8x100000 ![] Gen.bcast_S_S8x100000 : (⟨S_, .f32⟩ : BufTy).Contents (Elt F) → (⟨S8x100000, .f32⟩ : BufTy).Contents (Elt F)),
    StableHlo.ternary main_call0_v12 main_call0_v13 main_call0_v14 main_v20 (select : (⟨S8x100000, .i1⟩ : BufTy).Contents (Elt F) → (⟨S8x100000, .f32⟩ : BufTy).Contents (Elt F) → (⟨S8x100000, .f32⟩ : BufTy).Contents (Elt F) → (⟨S8x100000, .f32⟩ : BufTy).Contents (Elt F)) ]

set_option maxRecDepth 8192

theorem op0_eq : (StableHlo.TRef.nullary (.of main_call0_c : StableHlo.TRef sig ⟨S_, .i32⟩) (constantI S_ 32 0#32) : HloOp τ sig (Elt F)) = StableHlo.nullary main_call0_c (constantI S_ 32 0#32 : (⟨S_, .i32⟩ : BufTy).Contents (Elt F)) := rfl
theorem op1_eq : (StableHlo.TRef.unary (.of main_call0_c : StableHlo.TRef sig ⟨S_, .i32⟩) (.of main_call0_v0 : StableHlo.TRef sig ⟨S8x100000, .i32⟩) (broadcastInDim S8x100000 ![] Gen.bcast_S_S8x100000) : HloOp τ sig (Elt F)) = StableHlo.unary main_call0_c main_call0_v0 (broadcastInDim S8x100000 ![] Gen.bcast_S_S8x100000 : (⟨S_, .i32⟩ : BufTy).Contents (Elt F) → (⟨S8x100000, .i32⟩ : BufTy).Contents (Elt F)) := rfl
theorem op2_eq : (StableHlo.TRef.binary (.of main_arg3 : StableHlo.TRef sig ⟨S8x100000, .i32⟩) (.of main_call0_v0 : StableHlo.TRef sig ⟨S8x100000, .i32⟩) (.of main_call0_v1 : StableHlo.TRef sig ⟨S8x100000, .i1⟩) (cmpi .slt) : HloOp τ sig (Elt F)) = StableHlo.binary main_arg3 main_call0_v0 main_call0_v1 (cmpi .slt : (⟨S8x100000, .i32⟩ : BufTy).Contents (Elt F) → (⟨S8x100000, .i32⟩ : BufTy).Contents (Elt F) → (⟨S8x100000, .i1⟩ : BufTy).Contents (Elt F)) := rfl
theorem op3_eq : (StableHlo.TRef.nullary (.of main_call0_c_0 : StableHlo.TRef sig ⟨S_, .i32⟩) (constantI S_ 32 100000#32) : HloOp τ sig (Elt F)) = StableHlo.nullary main_call0_c_0 (constantI S_ 32 100000#32 : (⟨S_, .i32⟩ : BufTy).Contents (Elt F)) := rfl
theorem op4_eq : (StableHlo.TRef.unary (.of main_call0_c_0 : StableHlo.TRef sig ⟨S_, .i32⟩) (.of main_call0_v2 : StableHlo.TRef sig ⟨S8x100000, .i32⟩) (broadcastInDim S8x100000 ![] Gen.bcast_S_S8x100000) : HloOp τ sig (Elt F)) = StableHlo.unary main_call0_c_0 main_call0_v2 (broadcastInDim S8x100000 ![] Gen.bcast_S_S8x100000 : (⟨S_, .i32⟩ : BufTy).Contents (Elt F) → (⟨S8x100000, .i32⟩ : BufTy).Contents (Elt F)) := rfl
theorem op5_eq : (StableHlo.TRef.binary (.of main_arg3 : StableHlo.TRef sig ⟨S8x100000, .i32⟩) (.of main_call0_v2 : StableHlo.TRef sig ⟨S8x100000, .i32⟩) (.of main_call0_v3 : StableHlo.TRef sig ⟨S8x100000, .i32⟩) addi : HloOp τ sig (Elt F)) = StableHlo.binary main_arg3 main_call0_v2 main_call0_v3 (addi : (⟨S8x100000, .i32⟩ : BufTy).Contents (Elt F) → (⟨S8x100000, .i32⟩ : BufTy).Contents (Elt F) → (⟨S8x100000, .i32⟩ : BufTy).Contents (Elt F)) := rfl
theorem op6_eq : (StableHlo.TRef.ternary (.of main_call0_v1 : StableHlo.TRef sig ⟨S8x100000, .i1⟩) (.of main_call0_v3 : StableHlo.TRef sig ⟨S8x100000, .i32⟩) (.of main_arg3 : StableHlo.TRef sig ⟨S8x100000, .i32⟩) (.of main_call0_v4 : StableHlo.TRef sig ⟨S8x100000, .i32⟩) select : HloOp τ sig (Elt F)) = StableHlo.ternary main_call0_v1 main_call0_v3 main_arg3 main_call0_v4 (select : (⟨S8x100000, .i1⟩ : BufTy).Contents (Elt F) → (⟨S8x100000, .i32⟩ : BufTy).Contents (Elt F) → (⟨S8x100000, .i32⟩ : BufTy).Contents (Elt F) → (⟨S8x100000, .i32⟩ : BufTy).Contents (Elt F)) := rfl
theorem op7_eq : (StableHlo.TRef.reshape (.of main_call0_v4 : StableHlo.TRef sig ⟨S8x100000, .i32⟩) (.of main_call0_v5 : StableHlo.TRef sig ⟨S8x100000x1, .i32⟩) rfl Gen.shapeCasts_S8x100000_S8x100000x1 : HloOp τ sig (Elt F)) = StableHlo.reshape main_call0_v4 main_call0_v5 rfl Gen.shapeCasts_S8x100000_S8x100000x1 := rfl
theorem op8_eq : (StableHlo.TRef.nullary (.of main_call0_c_1 : StableHlo.TRef sig ⟨S1, .i32⟩) (constantI S1 32 99999#32) : HloOp τ sig (Elt F)) = StableHlo.nullary main_call0_c_1 (constantI S1 32 99999#32 : (⟨S1, .i32⟩ : BufTy).Contents (Elt F)) := rfl
theorem op9_eq : (StableHlo.TRef.nullary (.of main_call0_c_2 : StableHlo.TRef sig ⟨S_, .i32⟩) (constantI S_ 32 0#32) : HloOp τ sig (Elt F)) = StableHlo.nullary main_call0_c_2 (constantI S_ 32 0#32 : (⟨S_, .i32⟩ : BufTy).Contents (Elt F)) := rfl
theorem op10_eq : (StableHlo.TRef.unary (.of main_call0_c_2 : StableHlo.TRef sig ⟨S_, .i32⟩) (.of main_call0_v6 : StableHlo.TRef sig ⟨S8x100000x1, .i32⟩) (broadcastInDim S8x100000x1 ![] Gen.bcast_S_S8x100000x1) : HloOp τ sig (Elt F)) = StableHlo.unary main_call0_c_2 main_call0_v6 (broadcastInDim S8x100000x1 ![] Gen.bcast_S_S8x100000x1 : (⟨S_, .i32⟩ : BufTy).Contents (Elt F) → (⟨S8x100000x1, .i32⟩ : BufTy).Contents (Elt F)) := rfl
theorem op11_eq : (StableHlo.TRef.binary (.of main_call0_v5 : StableHlo.TRef sig ⟨S8x100000x1, .i32⟩) (.of main_call0_v6 : StableHlo.TRef sig ⟨S8x100000x1, .i32⟩) (.of main_call0_v7 : StableHlo.TRef sig ⟨S8x100000x1, .i1⟩) (cmpi .sge) : HloOp τ sig (Elt F)) = StableHlo.binary main_call0_v5 main_call0_v6 main_call0_v7 (cmpi .sge : (⟨S8x100000x1, .i32⟩ : BufTy).Contents (Elt F) → (⟨S8x100000x1, .i32⟩ : BufTy).Contents (Elt F) → (⟨S8x100000x1, .i1⟩ : BufTy).Contents (Elt F)) := rfl
theorem op12_eq : (StableHlo.TRef.unary (.of main_call0_c_1 : StableHlo.TRef sig ⟨S1, .i32⟩) (.of main_call0_v8 : StableHlo.TRef sig ⟨S1x1x1, .i32⟩) (broadcastInDim S1x1x1 ![2] Gen.bcast_S1_S1x1x1_2) : HloOp τ sig (Elt F)) = StableHlo.unary main_call0_c_1 main_call0_v8 (broadcastInDim S1x1x1 ![2] Gen.bcast_S1_S1x1x1_2 : (⟨S1, .i32⟩ : BufTy).Contents (Elt F) → (⟨S1x1x1, .i32⟩ : BufTy).Contents (Elt F)) := rfl
theorem op13_eq : (StableHlo.TRef.unary (.of main_call0_v8 : StableHlo.TRef sig ⟨S1x1x1, .i32⟩) (.of main_call0_v9 : StableHlo.TRef sig ⟨S8x100000x1, .i32⟩) (broadcastInDim S8x100000x1 ![0, 1, 2] Gen.bcast_S1x1x1_S8x100000x1_0_1_2) : HloOp τ sig (Elt F)) = StableHlo.unary main_call0_v8 main_call0_v9 (broadcastInDim S8x100000x1 ![0, 1, 2] Gen.bcast_S1x1x1_S8x100000x1_0_1_2 : (⟨S1x1x1, .i32⟩ : BufTy).Contents (Elt F) → (⟨S8x100000x1, .i32⟩ : BufTy).Contents (Elt F)) := rfl
theorem op14_eq : (StableHlo.TRef.binary (.of main_call0_v5 : StableHlo.TRef sig ⟨S8x100000x1, .i32⟩) (.of main_call0_v9 : StableHlo.TRef sig ⟨S8x100000x1, .i32⟩) (.of main_call0_v10 : StableHlo.TRef sig ⟨S8x100000x1, .i1⟩) (cmpi .sle) : HloOp τ sig (Elt F)) = StableHlo.binary main_call0_v5 main_call0_v9 main_call0_v10 (cmpi .sle : (⟨S8x100000x1, .i32⟩ : BufTy).Contents (Elt F) → (⟨S8x100000x1, .i32⟩ : BufTy).Contents (Elt F) → (⟨S8x100000x1, .i1⟩ : BufTy).Contents (Elt F)) := rfl
theorem op15_eq : (StableHlo.TRef.binary (.of main_call0_v7 : StableHlo.TRef sig ⟨S8x100000x1, .i1⟩) (.of main_call0_v10 : StableHlo.TRef sig ⟨S8x100000x1, .i1⟩) (.of main_call0_v11 : StableHlo.TRef sig ⟨S8x100000x1, .i1⟩) andi : HloOp τ sig (Elt F)) = StableHlo.binary main_call0_v7 main_call0_v10 main_call0_v11 (andi : (⟨S8x100000x1, .i1⟩ : BufTy).Contents (Elt F) → (⟨S8x100000x1, .i1⟩ : BufTy).Contents (Elt F) → (⟨S8x100000x1, .i1⟩ : BufTy).Contents (Elt F)) := rfl
theorem op16_eq : (StableHlo.TRef.nullary (.of main_call0_c_3 : StableHlo.TRef sig ⟨S_, .i1⟩) (constantI S_ 1 1#1) : HloOp τ sig (Elt F)) = StableHlo.nullary main_call0_c_3 (constantI S_ 1 1#1 : (⟨S_, .i1⟩ : BufTy).Contents (Elt F)) := rfl
theorem op17_eq : (StableHlo.TRef.binary (.of main_call0_v11 : StableHlo.TRef sig ⟨S8x100000x1, .i1⟩) (.of main_call0_c_3 : StableHlo.TRef sig ⟨S_, .i1⟩) (.of main_call0_v12 : StableHlo.TRef sig ⟨S8x100000, .i1⟩) (fun x v => Host.reduce IntOp.andi x v Gen.reducesTo_S8x100000x1_S8x100000_d2 Gen.h_S_) : HloOp τ sig (Elt F)) = StableHlo.binary main_call0_v11 main_call0_c_3 main_call0_v12 ((fun x v => Host.reduce IntOp.andi x v Gen.reducesTo_S8x100000x1_S8x100000_d2 Gen.h_S_) : (⟨S8x100000x1, .i1⟩ : BufTy).Contents (Elt F) → (⟨S_, .i1⟩ : BufTy).Contents (Elt F) → (⟨S8x100000, .i1⟩ : BufTy).Contents (Elt F)) :=
  binary_of main_call0_v11 main_call0_c_3 main_call0_v12 ⟨by decide, rfl⟩ ⟨by decide, rfl⟩ ⟨by decide, rfl⟩ _
theorem op18_eq : (StableHlo.TRef.binary (.of main_v19 : StableHlo.TRef sig ⟨S8x100000, .f32⟩) (.of main_call0_v5 : StableHlo.TRef sig ⟨S8x100000x1, .i32⟩) (.of main_call0_v13 : StableHlo.TRef sig ⟨S8x100000, .f32⟩) (fun x i => Host.gather gather_S8x100000_S8x100000x1_S8x100000_n_1_0_0_1_2_11 x i) : HloOp τ sig (Elt F)) = StableHlo.binary main_v19 main_call0_v5 main_call0_v13 ((fun x i => Host.gather gather_S8x100000_S8x100000x1_S8x100000_n_1_0_0_1_2_11 x i) : (⟨S8x100000, .f32⟩ : BufTy).Contents (Elt F) → (⟨S8x100000x1, .i32⟩ : BufTy).Contents (Elt F) → (⟨S8x100000, .f32⟩ : BufTy).Contents (Elt F)) := rfl
theorem op19_eq : (StableHlo.TRef.nullary (.of main_call0_cst : StableHlo.TRef sig ⟨S_, .f32⟩) (constant S_ .f32 0x7FC00000#32) : HloOp τ sig (Elt F)) = StableHlo.nullary main_call0_cst (constant S_ .f32 0x7FC00000#32 : (⟨S_, .f32⟩ : BufTy).Contents (Elt F)) := rfl
theorem op20_eq : (StableHlo.TRef.unary (.of main_call0_cst : StableHlo.TRef sig ⟨S_, .f32⟩) (.of main_call0_v14 : StableHlo.TRef sig ⟨S8x100000, .f32⟩) (broadcastInDim S8x100000 ![] Gen.bcast_S_S8x100000) : HloOp τ sig (Elt F)) = StableHlo.unary main_call0_cst main_call0_v14 (broadcastInDim S8x100000 ![] Gen.bcast_S_S8x100000 : (⟨S_, .f32⟩ : BufTy).Contents (Elt F) → (⟨S8x100000, .f32⟩ : BufTy).Contents (Elt F)) := rfl
theorem op21_eq : (StableHlo.TRef.ternary (.of main_call0_v12 : StableHlo.TRef sig ⟨S8x100000, .i1⟩) (.of main_call0_v13 : StableHlo.TRef sig ⟨S8x100000, .f32⟩) (.of main_call0_v14 : StableHlo.TRef sig ⟨S8x100000, .f32⟩) (.of main_v20 : StableHlo.TRef sig ⟨S8x100000, .f32⟩) select : HloOp τ sig (Elt F)) = StableHlo.ternary main_call0_v12 main_call0_v13 main_call0_v14 main_v20 (select : (⟨S8x100000, .i1⟩ : BufTy).Contents (Elt F) → (⟨S8x100000, .f32⟩ : BufTy).Contents (Elt F) → (⟨S8x100000, .f32⟩ : BufTy).Contents (Elt F) → (⟨S8x100000, .f32⟩ : BufTy).Contents (Elt F)) := rfl

/-- The printed list of the lines after the region is that list, line by line. -/
theorem hostOps1_eq : (hostOps1 : List (HloOp τ sig (Elt F))) = ops1 :=
  congrArg₂ List.cons op0_eq (congrArg₂ List.cons op1_eq (congrArg₂ List.cons op2_eq (congrArg₂ List.cons op3_eq (congrArg₂ List.cons op4_eq (congrArg₂ List.cons op5_eq (congrArg₂ List.cons op6_eq (congrArg₂ List.cons op7_eq (congrArg₂ List.cons op8_eq (congrArg₂ List.cons op9_eq (congrArg₂ List.cons op10_eq (congrArg₂ List.cons op11_eq (congrArg₂ List.cons op12_eq (congrArg₂ List.cons op13_eq (congrArg₂ List.cons op14_eq (congrArg₂ List.cons op15_eq (congrArg₂ List.cons op16_eq (congrArg₂ List.cons op17_eq (congrArg₂ List.cons op18_eq (congrArg₂ List.cons op19_eq (congrArg₂ List.cons op20_eq (congrArg₂ List.cons op21_eq (rfl))))))))))))))))))))))

/-! ## The lines after the region as one function -/

/-- The lines after the region as one function of the table `T` and the candidate words `N`: wrap a negative word by
    the axis length, test the wrapped word against [0, 99999], read row `b` of the table at the word taken signed and
    clamped, and keep that element where the test holds, the quiet not-a-number word elsewhere. -/
def takeAlong (T : Vec Ideal S8x100000 .f32) (N : IVec S8x100000 32) : Vec Ideal S8x100000 .f32 :=
  let zero : IVec S8x100000 32 := broadcastInDim S8x100000 ![] Gen.bcast_S_S8x100000 (constantI S_ 32 0#32)
  let neg : IVec S8x100000 1 := cmpi .slt N zero
  let len : IVec S8x100000 32 := broadcastInDim S8x100000 ![] Gen.bcast_S_S8x100000 (constantI S_ 32 100000#32)
  let wrapped : IVec S8x100000 32 := select neg (addi N len) N
  let idx : IVec S8x100000x1 32 := shapeCast S8x100000x1 wrapped Gen.shapeCasts_S8x100000_S8x100000x1
  let ge0 : IVec S8x100000x1 1 :=
    cmpi .sge idx (broadcastInDim S8x100000x1 ![] Gen.bcast_S_S8x100000x1 (constantI S_ 32 0#32))
  let last : IVec S8x100000x1 32 :=
    broadcastInDim S8x100000x1 ![0, 1, 2] Gen.bcast_S1x1x1_S8x100000x1_0_1_2
      (broadcastInDim S1x1x1 ![2] Gen.bcast_S1_S1x1x1_2 (constantI S1 32 99999#32))
  let le : IVec S8x100000x1 1 := cmpi .sle idx last
  let inr : IVec S8x100000 1 :=
    Host.reduce IntOp.andi (andi ge0 le) (constantI S_ 1 1#1) Gen.reducesTo_S8x100000x1_S8x100000_d2 Gen.h_S_
  let got : Vec Ideal S8x100000 .f32 := Host.gather gather_S8x100000_S8x100000x1_S8x100000_n_1_0_0_1_2_11 T idx
  let nan : Vec Ideal S8x100000 .f32 :=
    broadcastInDim S8x100000 ![] Gen.bcast_S_S8x100000 (constant (F := Ideal) S_ .f32 0x7FC00000#32)
  select inr got nan

set_option maxHeartbeats 4000000 in
/-- After the lines the result buffer holds `takeAlong` of the table buffer and the candidates' buffer, whatever the
    buffers held before: the fold over the untyped list, read at the last line's buffer. -/
theorem tail_result (W : Valuation τ sig (Elt Ideal)) :
    StableHlo.after (hostOps1 (F := Ideal)) W (Proc.devRef .tc main_v20)
      = takeAlong (W (Proc.devRef .tc main_v19)) (W (Proc.devRef .tc main_arg3)) := by
  rw [hostOps1_eq]
  unfold ops1
  after_results
  rfl

end Cert.KernelIdeal.TailOps
end
-- ==== Proof.KernelIdeal.Tail.lean ====
/-
  The host operations after the kernel's region: a take-along-axis of the dense score table.

  The region leaves the table T[b, e] (8 rows, 100000 entities). The tail reads, for result entry (b, n), the
  candidate word N[b, n]; a negative word has the axis length 100000 added; the word is then tested against the
  range 0 ≤ · ≤ 99999, the table row b is read at the word taken signed and clamped into the axis, and the entry is
  that table element where the test holds and the quiet not-a-number word otherwise.

  Here: the tail's twenty-two operations as one function `takeAlong T N` of the table and the candidate words, the
  fact that the run's last buffer holds it, its value at an entry when every candidate word lies in [0, 100000)
  (the test is then true everywhere, and the clamped row is the specification's `rowOf` of the wrapped word), and
  the reading of that range out of the printed precondition.
-/
import proofs.«406659_j16879221473499_3_alg».proof.Proof.Gen.KernelIdeal.Frame
import proofs.«406659_j16879221473499_3_alg».proof.Proof.Gen.Pre_finite_inputs
import proofs.«406659_j16879221473499_3_alg».proof.Proof.Spec
import proofs.«406659_j16879221473499_3_alg».proof.Proof.KernelIdeal.TailOps
import Idealize.ShloMosaic.Lib.StableHlo.Run
import Idealize.ShloMosaic.Lib.StableHlo.Predicate
import Idealize.ShloMosaic.Lib.ReduceAll
import Idealize.ShloMosaic.Lib.ValueIdx
import Idealize.ShloMosaic.Lib.Pipeline.FrameSuffix

noncomputable section

namespace Cert.KernelIdeal.Tail

open Idealize.ShloMosaic Idealize.ShloMosaic.ValueIdx Idealize.ShloMosaic.TcCoe
open Idealize.SL Idealize.SL.Sem
open Cert.KernelIdeal Cert.KernelIdeal.Gen

/-- The tail as one function of the table `T` and the candidate words `N`: wrap a negative word by the axis
    length, test the wrapped word against [0, 99999], read row `b` of the table at the word taken signed and
    clamped, and keep that element where the test holds, the quiet not-a-number word elsewhere. -/
def takeAlong (T : Vec Ideal S8x100000 .f32) (N : IVec S8x100000 32) : Vec Ideal S8x100000 .f32 :=
  let zero : IVec S8x100000 32 := broadcastInDim S8x100000 ![] bcast_S_S8x100000 (constantI S_ 32 0#32)
  let neg : IVec S8x100000 1 := cmpi .slt N zero
  let len : IVec S8x100000 32 := broadcastInDim S8x100000 ![] bcast_S_S8x100000 (constantI S_ 32 100000#32)
  let wrapped : IVec S8x100000 32 := select neg (addi N len) N
  let idx : IVec S8x100000x1 32 := shapeCast S8x100000x1 wrapped shapeCasts_S8x100000_S8x100000x1
  let ge0 : IVec S8x100000x1 1 :=
    cmpi .sge idx (broadcastInDim S8x100000x1 ![] bcast_S_S8x100000x1 (constantI S_ 32 0#32))
  let last : IVec S8x100000x1 32 :=
    broadcastInDim S8x100000x1 ![0, 1, 2] bcast_S1x1x1_S8x100000x1_0_1_2
      (broadcastInDim S1x1x1 ![2] bcast_S1_S1x1x1_2 (constantI S1 32 99999#32))
  let le : IVec S8x100000x1 1 := cmpi .sle idx last
  let inr : IVec S8x100000 1 :=
    Host.reduce IntOp.andi (andi ge0 le) (constantI S_ 1 1#1) reducesTo_S8x100000x1_S8x100000_d2 h_S_
  let got : Vec Ideal S8x100000 .f32 := Host.gather gather_S8x100000_S8x100000x1_S8x100000_n_1_0_0_1_2_11 T idx
  let nan : Vec Ideal S8x100000 .f32 :=
    broadcastInDim S8x100000 ![] bcast_S_S8x100000 (constant (F := Ideal) S_ .f32 0x7FC00000#32)
  select inr got nan

/-- After the tail's operations the result buffer holds `takeAlong` of the table buffer and the candidates' buffer. -/
theorem tail_result (W : Valuation τ sig (Elt Ideal)) :
    StableHlo.after (hostOps1 (F := Ideal)) W (Proc.devRef .tc main_v20)
      = takeAlong (W (Proc.devRef .tc main_v19)) (W (Proc.devRef .tc main_arg3)) := by
  rw [show takeAlong = TailOps.takeAlong from rfl]
  exact TailOps.tail_result W

/-! ## Words in range, and the pieces read at an entry -/

/-- A word that is not negative is left as it is by the wrap. -/
theorem wrap_of_nonneg (x : BitVec 32) (h0 : 0 ≤ x.toInt) : Cert.Spec.wrap 100000#32 x = x := by
  unfold Cert.Spec.wrap
  have hne : ¬ IntOp.cmpi .slt x 0#32 = 1#1 := by
    rw [IntOp.cmpi_slt]
    have e0 : (0#32 : BitVec 32).toInt = 0 := by decide
    omega
  rw [eq_zero_of_ne_one hne, select_zero]

/-- For a word in [0, 100000) the range test on the wrapped word is true: both compares give the bit 1. -/
theorem test_of_range (x : BitVec 32) (h0 : 0 ≤ x.toInt) (h1 : x.toInt < 100000) :
    IntOp.andi (IntOp.cmpi .sge (Cert.Spec.wrap 100000#32 x) 0#32) (IntOp.cmpi .sle (Cert.Spec.wrap 100000#32 x) 99999#32)
      = 1#1 := by
  rw [wrap_of_nonneg x h0, IntOp.andi_eq_one, IntOp.cmpi_sge, IntOp.cmpi_sle]
  have e0 : (0#32 : BitVec 32).toInt = 0 := by decide
  have e1 : (99999#32 : BitVec 32).toInt = 99999 := by decide
  omega

/-- A left fold by `and` from the bit 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- A reduction by `and` from the bit 1 of an array of bits that are all 1 is 1 at every index. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x _ fun n _ => hx n

/-- An [a, b] array recast to [a, b, 1] reads, at (i, k, 0), the array at (i, k). -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) := by
  unfold shapeCast
  refine congrArg x (Shape.reshapeEquiv_eq_of_rowMajor h ?_)
  rw [Shape.rowMajor_val_three, Shape.rowMajor_val_two]
  show i.val * b + k.val = (i.val * b + k.val) * 1 + u.val
  omega

/-- A rank-2 index is the index of its two coordinates' values. -/
theorem ix2_val_eta {n0 n1 : ℕ} (j : (⟨2, ![n0, n1]⟩ : Shape).Idx) :
    ix2 (⟨(j 0).val, idx2_lt0 j⟩ : Fin n0) (⟨(j 1).val, idx2_lt1 j⟩ : Fin n1) = j := by
  funext a; match a with | ⟨0, _⟩ => rfl | ⟨1, _⟩ => rfl

/-- The gather of the tail read at entry (b, n): batch row `b` of the table at the row the start word
    `idx[b, n, 0]` names, read signed and clamped into the axis. -/
theorem gather_apply {α : Type} (T : S8x100000.Idx → α) (idx : IVec S8x100000x1 32) (j : S8x100000.Idx) :
    Host.gather gather_S8x100000_S8x100000x1_S8x100000_n_1_0_0_1_2_11 T idx j
      = T (ix2 (⟨(j 0).val, idx2_lt0 j⟩ : Fin 8) (Cert.Spec.rowOf 100000 (by decide)
          (idx (ix3 (⟨(j 0).val, idx2_lt0 j⟩ : Fin 8) (⟨(j 1).val, idx2_lt1 j⟩ : Fin 100000) (0 : Fin 1))))) := by
  unfold Host.gather
  refine congrArg T (funext fun a => Fin.ext ?_)
  match a with
  | ⟨0, _⟩ =>
    show gather_S8x100000_S8x100000x1_S8x100000_n_1_0_0_1_2_11.start j idx 0
        + gather_S8x100000_S8x100000x1_S8x100000_n_1_0_0_1_2_11.batchCoord j 0
        + gather_S8x100000_S8x100000x1_S8x100000_n_1_0_0_1_2_11.offCoord j 0 = (j 0).val
    rw [GatherDims.start_batching _ j idx 0 (by decide),
      GatherDims.offCoord_eq_zero _ j 0 (fun h => ((GatherDims.mem_sKept _ _).mp h).2 (by decide))]
    simp only [Nat.zero_add, Nat.add_zero]
    unfold GatherDims.batchCoord
    rw [dif_pos (by decide)]
    rfl
  | ⟨1, _⟩ =>
    show gather_S8x100000_S8x100000x1_S8x100000_n_1_0_0_1_2_11.start j idx 1
        + gather_S8x100000_S8x100000x1_S8x100000_n_1_0_0_1_2_11.batchCoord j 1
        + gather_S8x100000_S8x100000x1_S8x100000_n_1_0_0_1_2_11.offCoord j 1 = _
    rw [GatherDims.batchCoord_eq_zero _ j 1 (by decide),
      GatherDims.offCoord_eq_zero _ j 1 (fun h => ((GatherDims.mem_sKept _ _).mp h).1 (by decide))]
    simp only [Nat.add_zero]
    unfold GatherDims.start
    rw [dif_pos (by decide)]
    have hsi : gather_S8x100000_S8x100000x1_S8x100000_n_1_0_0_1_2_11.siIdx j
        ⟨List.idxOf (1 : Fin 2) gather_S8x100000_S8x100000x1_S8x100000_n_1_0_0_1_2_11.startIndexMap,
          List.idxOf_lt_length_iff.2 (by decide)⟩
        = ix3 (⟨(j 0).val, idx2_lt0 j⟩ : Fin 8) (⟨(j 1).val, idx2_lt1 j⟩ : Fin 100000) (0 : Fin 1) := by
      funext b; refine Fin.ext ?_
      match b with
      | ⟨0, _⟩ => rfl
      | ⟨1, _⟩ => rfl
      | ⟨2, _⟩ => rfl
    rw [hsi]
    rfl

/-- With every candidate word in [0, 100000) the tail's entry (b, n) is the table's row `b` at the row the wrapped
    word names: the range test is true at every entry, so the select keeps the gathered element. -/
theorem takeAlong_inrange (T : Vec Ideal S8x100000 .f32) (N : IVec S8x100000 32)
    (hN : ∀ j, 0 ≤ (N j).toInt ∧ (N j).toInt < 100000) (j : S8x100000.Idx) :
    takeAlong T N j = T (ix2 ⟨(j 0).val, idx2_lt0 j⟩
      (Cert.Spec.rowOf 100000 (by decide) (Cert.Spec.wrap 100000#32 (N j)))) := by
  unfold takeAlong
  dsimp only
  rw [select_apply, reduce_andi_one _ _ _ _ rfl (fun i => ?_), select_one]
  · refine (gather_apply _ _ j).trans ?_
    rw [shapeCast_ab_ab1_apply, ix2_val_eta]
    rfl
  · exact test_of_range _ (hN _).1 (hN _).2

/-! ## The candidates' range, read out of the printed precondition -/

instance : Subsingleton Cert.Pre_finite_inputs.S_.Idx := ⟨fun a b => funext fun d => d.elim0⟩

/-- The printed precondition is a conjunction of four "all" tests; its last two say that every candidate word is,
    as a signed number, at least 0 and below 100000. At any float instance: the two tests are on words only. -/
theorem range_of_pre_any {F : FTy → Type} [FloatOps F] (E : FVec F Cert.Pre_finite_inputs.S100000x256 .f32)
    (R : FVec F Cert.Pre_finite_inputs.S500x256 .f32) (P : IVec Cert.Pre_finite_inputs.S8x3 32)
    (N : IVec Cert.Pre_finite_inputs.S8x100000 32)
    (h : Cert.Pre_finite_inputs.fn (F := F) E R P N = fun _ => 1#1) :
    ∀ j, 0 ≤ (N j).toInt ∧ (N j).toInt < 100000 := by
  intro j
  have h0 := congrFun h ix0
  dsimp only [Cert.Pre_finite_inputs.fn, Cert.Pre_finite_inputs.fn_part1] at h0
  obtain ⟨h12, h15⟩ := IntOp.andi_eq_one.1 h0
  obtain ⟨_, h11⟩ := IntOp.andi_eq_one.1 h12
  have hge := Host.reduce_andi_all _ _ _ _ _ h11 j
  have hlt := Host.reduce_andi_all _ _ _ _ _ h15 j
  have hge' : (0#32 : BitVec 32).toInt ≤ (N j).toInt := IntOp.cmpi_sge.1 hge
  have hlt' : (N j).toInt < (100000#32 : BitVec 32).toInt := IntOp.cmpi_slt.1 hlt
  have e0 : (0#32 : BitVec 32).toInt = 0 := by decide
  have e1 : (100000#32 : BitVec 32).toInt = 100000 := by decide
  omega

/-- The same at the extended reals. -/
theorem range_of_pre (E : FVec Ideal Cert.Pre_finite_inputs.S100000x256 .f32)
    (R : FVec Ideal Cert.Pre_finite_inputs.S500x256 .f32) (P : IVec Cert.Pre_finite_inputs.S8x3 32)
    (N : IVec Cert.Pre_finite_inputs.S8x100000 32)
    (h : Cert.Pre_finite_inputs.fn (F := Ideal) E R P N = fun _ => 1#1) :
    ∀ j, 0 ≤ (N j).toInt ∧ (N j).toInt < 100000 :=
  range_of_pre_any E R P N h

/-! ## The tail on the pipeline's run -/

/-- For any proof data of the region: what the run's tail leaves in the result buffer is `takeAlong` of the table
    array as the region's last point leaves it and of the candidates' array as launched. -/
theorem kernel_tail (m : (ℓ : Loc nD τ sig) → Buf (Elt Ideal) ℓ)
    (dats : (p : Fin 1) → (c : Dev nD) → Pipeline.Dat τ (Elt Ideal) Unit ℕ (UR sig nD τ) ℕ (cfgs p) c) (c : Dev nD) :
    Pipeline.afterTail₀ cfgs dats 0 (Gen.V0 m) [hostOps1] c main_v20
      = takeAlong ((dats 0 c).arrAt 2 cfg0.N) (m ((c : Thread nD τ).loc main_arg3)) := by
  unfold Pipeline.afterTail₀
  show StableHlo.after (hostOps1 (F := Ideal)) _ (Proc.devRef .tc main_v20) = _
  refine (tail_result _).trans ?_
  have e1 : Pipeline.withArrays (cfgs 0).spec c (Gen.V0 m c) (fun w => (dats 0 c).arrAt w (cfgs 0).N)
      (Proc.devRef .tc main_v19) = (dats 0 c).arrAt 2 cfg0.N :=
    Pipeline.withArrays_arr spec0 launch0.win.arr_inj c _ _ 2
  have e2 : Pipeline.withArrays (cfgs 0).spec c (Gen.V0 m c) (fun w => (dats 0 c).arrAt w (cfgs 0).N)
      (Proc.devRef .tc main_arg3) = m ((c : Thread nD τ).loc main_arg3) :=
    (Pipeline.withArrays_of_ne _ c (Gen.V0 m c) _ main_arg3
      (by exact (by decide : ∀ w, Pipeline.arrRef spec0 w ≠ main_arg3))).trans (Gen.V_main_arg3 m c)
  rw [e1, e2]

end Cert.KernelIdeal.Tail

end
-- ==== Proof.LibGather.lean ====
import Idealize.ShloMosaic.PureOps.Ideal
import Idealize.ShloMosaic.Lib.ValueIdx

/-
  A row gather read at an index.

  Taking whole rows of a two-axis table [N, C] at an array of row numbers — the array carrying one trailing unit axis that
  holds the single start component — is a gather whose one start component names axis 0, which is collapsed, and whose
  slice is one whole row. Each result entry is then the table at one row and one column: the row is the start word read as
  a signed number and clamped into [0, N − 1] (a negative word gives row 0, a word past the end the last row); the column
  is the result's last coordinate. Stated for row-number arrays [B, 1] (result [B, C]) and [B, M, 1] (result [B, M, C]).
-/

noncomputable section

namespace Cert.LibGather

open Idealize.ShloMosaic Idealize.ShloMosaic.ValueIdx

variable {α : Type}

/-- The dimension numbers of "row idx[b, 0] of a table [N, C], for every b": the result's axis 1 is the offset axis, the
    table's axis 0 is collapsed and is the one axis the start index names, the start component sits on the row-number
    array's axis 1, and the slice is 1 × C. Their conditions `wf` are decided on literal sizes. -/
abbrev rowDims2 (N B C : Nat) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- Result entry (b, h) of that gather is the table's entry at row `min (toNat (toInt idx[b, 0])) (N − 1)` and column h:
    on the table's axis 0 the coordinate is the clamped start alone (no batching, no offset on a collapsed axis), on
    axis 1 it is the result's offset coordinate h alone (the start index does not name that axis). -/
theorem gather_rows2_apply {N B C w : Nat} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (b : Fin B) (h : Fin C) :
    Host.gather (rowDims2 N B C wf) x idx (ix2 b h)
      = x (ix2 (⟨min (idx (ix2 b (0 : Fin 1))).toInt.toNat (N - 1), by omega⟩ : Fin N) h) := by
  unfold Host.gather
  congr 1
  funext a
  refine Fin.ext ?_
  match a with
  | ⟨0, _⟩ =>
    show (rowDims2 N B C wf).start (ix2 b h) idx 0 + (rowDims2 N B C wf).batchCoord (ix2 b h) 0
      + (rowDims2 N B C wf).offCoord (ix2 b h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowDims2 N B C wf).startIndexMap from List.mem_singleton.mpr rfl)]
    have hsi : (rowDims2 N B C wf).siIdx (ix2 b h) ⟨List.idxOf (0 : Fin 2) (rowDims2 N B C wf).startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show (rowDims2 N B C wf).start (ix2 b h) idx 1 + (rowDims2 N B C wf).batchCoord (ix2 b h) 1
      + (rowDims2 N B C wf).offCoord (ix2 b h) 1 = _
    rw [GatherDims.batchCoord_eq_zero _ _ _ List.not_mem_nil]
    unfold GatherDims.start
    rw [dif_neg (show (1 : Fin 2) ∉ (rowDims2 N B C wf).startIndexMap from
      fun hm => absurd (congrArg Fin.val (List.mem_singleton.mp hm)) Nat.one_ne_zero)]
    unfold GatherDims.offCoord
    rw [dif_pos (show (1 : Fin 2) ∈ (rowDims2 N B C wf).sKept from (GatherDims.mem_sKept _ _).mpr
      ⟨fun hm => absurd (congrArg Fin.val (List.mem_singleton.mp hm)) Nat.one_ne_zero, List.not_mem_nil⟩)]
    rw [Nat.zero_add]
    rfl

/-- The same gather over a row-number array with two leading axes, "row idx[b, n, 0] of a table [N, C], for every
    (b, n)": the result's axis 2 is the offset axis and the start component sits on the row-number array's axis 2. -/
abbrev rowDims3 (N B M C : Nat)
    (wf : GatherDims.WF ⟨2, ![N, C]⟩ ⟨3, ![B, M, 1]⟩ ⟨3, ![B, M, C]⟩ [2] [0] [] [0] [] 2 ![1, C]) :
    GatherDims ⟨2, ![N, C]⟩ ⟨3, ![B, M, 1]⟩ ⟨3, ![B, M, C]⟩ where
  offsetDims := [2]
  collapsedSliceDims := [0]
  operandBatchingDims := []
  startIndicesBatchingDims := []
  startIndexMap := [0]
  indexVectorDim := 2
  sliceSizes := ![1, C]
  wf := wf

/-- Result entry (b, n, h) of that gather is the table's entry at row `min (toNat (toInt idx[b, n, 0])) (N − 1)` and
    column h: the clamped start alone on the table's axis 0, the result's offset coordinate h alone on axis 1. -/
theorem gather_rows3_apply {N B M C w : Nat} (hN : 0 < N)
    (wf : GatherDims.WF ⟨2, ![N, C]⟩ ⟨3, ![B, M, 1]⟩ ⟨3, ![B, M, C]⟩ [2] [0] [] [0] [] 2 ![1, C])
    (x : (⟨2, ![N, C]⟩ : Shape).Idx → α) (idx : IVec ⟨3, ![B, M, 1]⟩ w) (b : Fin B) (n : Fin M) (h : Fin C) :
    Host.gather (rowDims3 N B M C wf) x idx (ix3 b n h)
      = x (ix2 (⟨min (idx (ix3 b n (0 : Fin 1))).toInt.toNat (N - 1), by omega⟩ : Fin N) h) := by
  unfold Host.gather
  congr 1
  funext a
  refine Fin.ext ?_
  match a with
  | ⟨0, _⟩ =>
    show (rowDims3 N B M C wf).start (ix3 b n h) idx 0 + (rowDims3 N B M C wf).batchCoord (ix3 b n h) 0
      + (rowDims3 N B M C wf).offCoord (ix3 b n h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowDims3 N B M C wf).startIndexMap from List.mem_singleton.mpr rfl)]
    have hsi : (rowDims3 N B M C wf).siIdx (ix3 b n h) ⟨List.idxOf (0 : Fin 2) (rowDims3 N B M C wf).startIndexMap,
        List.idxOf_lt_length_iff.2 (List.mem_singleton.mpr rfl)⟩ = ix3 b n (0 : Fin 1) := by
      funext c; refine Fin.ext ?_
      match c with
      | ⟨0, _⟩ => rfl
      | ⟨1, _⟩ => rfl
      | ⟨2, _⟩ => rfl
    rw [hsi]
    rfl
  | ⟨1, _⟩ =>
    show (rowDims3 N B M C wf).start (ix3 b n h) idx 1 + (rowDims3 N B M C wf).batchCoord (ix3 b n h) 1
      + (rowDims3 N B M C wf).offCoord (ix3 b n h) 1 = _
    rw [GatherDims.batchCoord_eq_zero _ _ _ List.not_mem_nil]
    unfold GatherDims.start
    rw [dif_neg (show (1 : Fin 2) ∉ (rowDims3 N B M C wf).startIndexMap from
      fun hm => absurd (congrArg Fin.val (List.mem_singleton.mp hm)) Nat.one_ne_zero)]
    unfold GatherDims.offCoord
    rw [dif_pos (show (1 : Fin 2) ∈ (rowDims3 N B M C wf).sKept from (GatherDims.mem_sKept _ _).mpr
      ⟨fun hm => absurd (congrArg Fin.val (List.mem_singleton.mp hm)) Nat.one_ne_zero, List.not_mem_nil⟩)]
    rw [Nat.zero_add]
    rfl

end Cert.LibGather

end
-- ==== Proof.KernelIdeal.Query.lean ====
/-
  The query rows as the region finds them.

  Before its region the program computes, on the host, the query rows hr[b, ·] = E[p₀(b), ·] + R[p₁(b), ·]: it cuts a
  column of the positive triples, drops the unit axis, adds the axis length to a word that is negative as a signed
  number, puts the unit axis back, takes the rows of the table those words name — each start word read signed and
  clamped into the table — and adds the two results entry by entry. Read at an index (b, h) every stage names one
  entry of its operand, so the composed function is the specification's `hrOf` entry by entry; nothing is evaluated at
  the tables' extents.
-/
import proofs.«406659_j16879221473499_3_alg».proof.Proof.Gen.KernelIdeal.Frame
import proofs.«406659_j16879221473499_3_alg».proof.Proof.Spec
import proofs.«406659_j16879221473499_3_alg».proof.Proof.LibGather
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Query

open Cert.KernelIdeal Cert.KernelIdeal.Gen Idealize.ShloMosaic Idealize.ShloMosaic.ValueIdx
open Idealize.ShloMosaic.TcCoe

/-! ## The host lines' composed term -/

/-- Column `o` of the positive triples as a vector of eight words: the column cut out, its unit axis dropped. -/
def col (o : Nat) (hs : S8x3.Slices ![0, o] S8x1) (P : S8x3.Idx → BitVec 32) : IVec S8 32 :=
  shapeCast S8 (extractStridedSlice S8x1 ![0, o] P hs) Gen.shapeCasts_S8x1_S8

/-- The start indices of a row gather from eight words: a word negative as a signed number has the axis length `n`
    added, and the vector gets a trailing unit axis. -/
def wrapCol (n : BitVec 32) (x : IVec S8 32) : IVec S8x1 32 :=
  broadcastInDim S8x1 ![0] Gen.bcast_S8_S8x1_0
    (select (cmpi CmpIPredicate.slt x (broadcastInDim S8 ![] Gen.bcast_S_S8 (constantI S_ 32 0#32)))
      (addi x (broadcastInDim S8 ![] Gen.bcast_S_S8 (constantI S_ 32 n))) x)

/-- What the host lines before the region leave in the query buffer, as ONE function of the entity table, the relation
    table and the positive triples: rows of the one table plus rows of the other. -/
def queryTerm (E : S100000x256.Idx → EReal) (R : S500x256.Idx → EReal) (P : S8x3.Idx → BitVec 32) : S8x256.Idx → EReal :=
  addf (F := Ideal) (φ := .f32)
    (Host.gather gather_S100000x256_S8x1_S8x256_1_0_n_n_0_1_1256 E (wrapCol 100000#32 (col 0 Gen.slices_S8x3_S8x1_0_0 P)))
    (Host.gather gather_S500x256_S8x1_S8x256_1_0_n_n_0_1_1256 R (wrapCol 500#32 (col 1 Gen.slices_S8x3_S8x1_0_1 P)))

set_option maxHeartbeats 2000000 in
/-- The region finds the query buffer at the composed term of the argument arrays as launched: each host line's result
    at its own buffer is its function's value, at any other buffer what was there. -/
theorem V_query (m : (ℓ : Loc nD τ sig) → Buf (Elt Ideal) ℓ) (c : Dev nD) :
    (Gen.V m c main_v18 : S8x256.Idx → EReal)
      = queryTerm (m ((c : Thread nD τ).loc main_arg0)) (m ((c : Thread nD τ).loc main_arg1)) (m ((c : Thread nD τ).loc main_arg2)) := by
  show StableHlo.after hostOps0 (fun b => m (c, b)) (Proc.devRef .tc main_v18) = _
  after_results
  rfl

/-! ## The term read at an index -/

/-- The column read at row `b`: the triples' entry (b, k), `k` the column cut. -/
theorem col_apply (o : Nat) (hs : S8x3.Slices ![0, o] S8x1) (P : S8x3.Idx → BitVec 32) (b : Fin 8) (k : Fin 3) (hk : k.val = o) :
    col o hs P (ix1 b) = P (ix2 b k) := by
  unfold col
  refine (shapeCast_apply _ _ (ix1 b) (ix2 b (0 : Fin 1)) ?_).trans ?_
  · rw [Shape.rowMajor_val_two, Shape.rowMajor_val_one]
    show b.val * 1 + 0 = b.val
    omega
  · exact slice2_axis1_apply o P hs b (0 : Fin 1) k (by rw [hk]; rfl)

/-- The start indices read at (b, 0): the word of row `b`, wrapped as the specification wraps it. -/
theorem wrapCol_apply (n : BitVec 32) (x : IVec S8 32) (b : Fin 8) :
    wrapCol n x (ix2 b (0 : Fin 1)) = Cert.Spec.wrap n (x (ix1 b)) := by
  unfold wrapCol
  refine (broadcastInDim_apply _ _ _ (ix2 b (0 : Fin 1)) (ix1 b) (fun a => ?_)).trans ?_
  · match a with
    | ⟨0, _⟩ => rfl
  · rfl

/-- A row gather at wrapped start indices, read at (b, h): the table at the row the specification names and column h. -/
theorem gather_wrapCol_apply {N : Nat} (hN : 0 < N)
    (wf : GatherDims.WF ⟨2, ![N, 256]⟩ ⟨2, ![8, 1]⟩ ⟨2, ![8, 256]⟩ [1] [0] [] [0] [] 1 ![1, 256])
    (X : (⟨2, ![N, 256]⟩ : Shape).Idx → EReal) (n : BitVec 32) (x : IVec S8 32) (b : Fin 8) (h : Fin 256) :
    Host.gather (Cert.LibGather.rowDims2 N 8 256 wf) X (wrapCol n x) (ix2 b h)
      = X (ix2 (Cert.Spec.rowOf N hN (Cert.Spec.wrap n (x (ix1 b)))) h) :=
  (Cert.LibGather.gather_rows2_apply hN wf X (wrapCol n x) b h).trans
    (congrArg (fun w => X (ix2 (Cert.Spec.rowOf N hN w) h)) (wrapCol_apply n x b))

/-- The composed term at (b, h) is the specification's query row b at column h. -/
theorem queryTerm_apply (E : S100000x256.Idx → EReal) (R : S500x256.Idx → EReal) (P : S8x3.Idx → BitVec 32) (b : Fin 8) (h : Fin 256) :
    queryTerm E R P (ix2 b h) = Cert.Spec.hrOf E R P (ix2 b h) := by
  unfold queryTerm
  rw [addf_apply]
  refine congrArg₂ (· + ·) ?_ ?_
  · refine (gather_wrapCol_apply (N := 100000) (by decide) Gen.gather_S100000x256_S8x1_S8x256_1_0_n_n_0_1_1256_wf E 100000#32 _ b h).trans ?_
    rw [col_apply 0 _ P b (0 : Fin 3) rfl]
  · refine (gather_wrapCol_apply (N := 500) (by decide) Gen.gather_S500x256_S8x1_S8x256_1_0_n_n_0_1_1256_wf R 500#32 _ b h).trans ?_
    rw [col_apply 1 _ P b (1 : Fin 3) rfl]

/-! ## The query rows -/

/-- THE QUERY ROWS: what the region finds in the query buffer is the specification's head-plus-relation rows of the
    argument arrays as launched. -/
theorem query_eq (m : (ℓ : Loc nD τ sig) → Buf (Elt Ideal) ℓ) (c : Dev nD) :
    (Gen.V m c main_v18 : S8x256.Idx → EReal)
      = Cert.Spec.hrOf (m ((c : Thread nD τ).loc main_arg0)) (m ((c : Thread nD τ).loc main_arg1)) (m ((c : Thread nD τ).loc main_arg2)) := by
  rw [V_query m c]
  funext j
  rw [eq_ix2 j]
  exact queryTerm_apply _ _ _ (j 0) (j 1)

end Cert.KernelIdeal.Query

end
-- ==== Proof.KernelIdeal.Result.lean ====
import proofs.«406659_j16879221473499_3_alg».proof.Proof.KernelIdeal.Table
import proofs.«406659_j16879221473499_3_alg».proof.Proof.KernelIdeal.Tail
import proofs.«406659_j16879221473499_3_alg».proof.Proof.KernelIdeal.Query

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- With every candidate index in range of the entity table, what the host lines after the region leave in the result
    buffer is the specification's function of the four argument arrays: the range test holds at every entry, so each
    entry is the dense table read at the row its (wrapped, clamped) word names, the table's query rows being head plus
    relation. -/
theorem result_eq (c : Dev nD)
    (hN : ∀ j, 0 ≤ ((m ((c : Thread nD τ).loc main_arg3) : IVec S8x100000 32) j).toInt
      ∧ ((m ((c : Thread nD τ).loc main_arg3) : IVec S8x100000 32) j).toInt < 100000) :
    Pipeline.afterTail₀ cfgs (dats m) 0 (V0 m) [hostOps1] c main_v20
      = Cert.Spec.result (m ((c : Thread nD τ).loc main_arg0)) (m ((c : Thread nD τ).loc main_arg1))
          (m ((c : Thread nD τ).loc main_arg2)) (m ((c : Thread nD τ).loc main_arg3)) := by
  rw [Tail.kernel_tail m (dats m) c, table_eq]
  funext j
  rw [Tail.takeAlong_inrange _ _ hN j]
  unfold Cert.Spec.result
  rw [Cert.Spec.score_eq_table, ← Query.query_eq m c]

/-- THE KERNEL'S RUN at the ideal values, under the precondition: it terminates without a fault, the result buffer ends
    at the specification's function of the argument arrays, and the argument arrays end as launched. -/
theorem run_spec (hpre : ∀ c : Dev nD,
      (Cert.Pre_finite_inputs.fn (F := Ideal) (m ((c.tc : Thread nD τ).loc main_arg0)) (m ((c.tc : Thread nD τ).loc main_arg1))
        (m ((c.tc : Thread nD τ).loc main_arg2)) (m ((c.tc : Thread nD τ).loc main_arg3))) = (fun _ => 1#1)) :
    θ_run defs (onTc (τ := τ) (main (F := Ideal))) ⟨m, fun _ => 0, ρ⟩ (fun r => ∀ c : Dev nD,
      r.2.mem ((c.tc : Thread nD τ).loc main_v20)
        = Cert.Spec.result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v20 (Pipeline.mem_restRefs_of main_v20 (by decide) (by decide))).trans
        (result_eq m c (Tail.range_of_pre _ _ _ _ (hpre c))),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.Reference.Value.lean ====
import proofs.«406659_j16879221473499_3_alg».proof.Proof.Gen.ReferenceIdeal.Run
import proofs.«406659_j16879221473499_3_alg».proof.Proof.Gen.ReferenceIdeal.Read
import proofs.«406659_j16879221473499_3_alg».proof.Proof.Spec
import proofs.«406659_j16879221473499_3_alg».proof.Proof.LibGather
import Idealize.ShloMosaic.PureOps.Ideal
import Idealize.ShloMosaic.PureOps.Ideal.Laws
import Idealize.ShloMosaic.Lib.ValueIdx

/-
  The reference program's result, named by the specification.

  The reference is a straight line of whole-array operations. Read at one result entry (b, n) it is
    12 − (0 + ∑ₕ |(E[p₀(b), h] + R[p₁(b), h]) − E[e(b, n), h]|),
  where p₀(b), p₁(b) and e(b, n) are the rows that the three row gathers read: the start word (column 0 or 1 of the
  positive triple, or the candidate word), with the axis length added when it is negative, read as a signed number and
  clamped into the table. That is the specification's entry (b, n) once the initial 0 of the sum is dropped.

  Each stage of the reference is read at explicit coordinates — the three row gathers by the general reading of a row
  gather at an index (its start array carrying one trailing unit axis, of rank two [B, 1] or three [B, M, 1]) —; then
  the run.
-/

noncomputable section

open scoped BigOperators

namespace Cert.ReferenceIdeal.RefValue

open Cert.ReferenceIdeal Cert.ReferenceIdeal.Gen Cert.ReferenceIdeal.Read Cert.LibGather Idealize.ShloMosaic Idealize.ShloMosaic.ValueIdx
  Idealize.ShloMosaic.TcCoe Idealize.SL.Sem Idealize.ShloMosaic.StableHlo

/-! ## The reference's stages at explicit coordinates -/

section Stages
variable (x0 : (⟨S100000x256, .f32⟩ : BufTy).Contents (Elt Ideal)) (x1 : (⟨S500x256, .f32⟩ : BufTy).Contents (Elt Ideal))
  (x2 : (⟨S8x3, .i32⟩ : BufTy).Contents (Elt Ideal)) (x3 : (⟨S8x100000, .i32⟩ : BufTy).Contents (Elt Ideal))

/-- The start word of the head gather for batch row b: column 0 of the triple, the entity count added when negative. -/
theorem head_word (b : Fin 8) :
    val_main_v7 (F := Ideal) x2 (ix2 b (0 : Fin 1)) = Cert.Spec.wrap 100000#32 (x2 (ix2 b (0 : Fin 3))) := by
  have e7 : idx_main_v7 (ix2 b (0 : Fin 1)) = ix1 b := funext fun a => Fin.ext (by match a with | ⟨0, _⟩ => rfl)
  have e0 : idx_main_v0 (idx_main_v1 (ix1 b)) = ix2 b (0 : Fin 3) :=
    funext fun a => Fin.ext (by
      match a with
      | ⟨0, _⟩ => show b.val / 1 = b.val; exact Nat.div_one _
      | ⟨1, _⟩ => rfl)
  rw [val_main_v7_apply, e7, val_main_v6_apply, val_main_v3_apply, val_main_v5_apply, val_main_v2_apply, val_main_c_apply,
    val_main_v4_apply, val_main_c_0_apply, val_main_v1_apply, val_main_v0_apply, e0]
  rfl

/-- The start word of the relation gather for batch row b: column 1 of the triple, the relation count added when
    negative. -/
theorem rel_word (b : Fin 8) :
    val_main_v17 (F := Ideal) x2 (ix2 b (0 : Fin 1)) = Cert.Spec.wrap 500#32 (x2 (ix2 b (1 : Fin 3))) := by
  have e17 : idx_main_v17 (ix2 b (0 : Fin 1)) = ix1 b := funext fun a => Fin.ext (by match a with | ⟨0, _⟩ => rfl)
  have e10 : idx_main_v10 (idx_main_v11 (ix1 b)) = ix2 b (1 : Fin 3) :=
    funext fun a => Fin.ext (by
      match a with
      | ⟨0, _⟩ => show b.val / 1 = b.val; exact Nat.div_one _
      | ⟨1, _⟩ => rfl)
  rw [val_main_v17_apply, e17, val_main_v16_apply, val_main_v13_apply, val_main_v15_apply, val_main_v12_apply,
    val_main_c_1_apply, val_main_v14_apply, val_main_c_2_apply, val_main_v11_apply, val_main_v10_apply, e10]
  rfl

/-- The start word of the candidates' gather at (b, n): the candidate word, the entity count added when negative. -/
theorem cand_word (b : Fin 8) (n : Fin 100000) :
    val_main_v25 (F := Ideal) x3 (ix3 b n (0 : Fin 1)) = Cert.Spec.wrap 100000#32 (x3 (ix2 b n)) := by
  have e25 : idx_main_v25 (ix3 b n (0 : Fin 1)) = ix2 b n :=
    funext fun a => Fin.ext (by match a with | ⟨0, _⟩ => rfl | ⟨1, _⟩ => rfl)
  rw [val_main_v25_apply, e25, val_main_v24_apply, val_main_v21_apply, val_main_v23_apply, val_main_v20_apply,
    val_main_c_3_apply, val_main_v22_apply, val_main_c_4_apply]
  rfl

/-- The head rows: entry (b, h) is the entity table at the row the wrapped column-0 word names, column h. -/
theorem head_row (b : Fin 8) (h : Fin 256) :
    val_main_v8 (F := Ideal) x0 x2 (ix2 b h)
      = x0 (ix2 (Cert.Spec.rowOf 100000 (by decide) (Cert.Spec.wrap 100000#32 (x2 (ix2 b (0 : Fin 3))))) h) := by
  unfold val_main_v8
  exact (gather_rows2_apply (N := 100000) (B := 8) (C := 256) (by decide)
    Gen.gather_S100000x256_S8x1_S8x256_1_0_n_n_0_1_1256_wf x0 (val_main_v7 (F := Ideal) x2) b h).trans
    (congrArg (fun r => x0 (ix2 (Cert.Spec.rowOf 100000 (by decide) r) h)) (head_word x2 b))

/-- The relation rows: entry (b, h) is the relation table at the row the wrapped column-1 word names, column h. -/
theorem rel_row (b : Fin 8) (h : Fin 256) :
    val_main_v18 (F := Ideal) x1 x2 (ix2 b h)
      = x1 (ix2 (Cert.Spec.rowOf 500 (by decide) (Cert.Spec.wrap 500#32 (x2 (ix2 b (1 : Fin 3))))) h) := by
  unfold val_main_v18
  exact (gather_rows2_apply (N := 500) (B := 8) (C := 256) (by decide)
    Gen.gather_S500x256_S8x1_S8x256_1_0_n_n_0_1_1256_wf x1 (val_main_v17 (F := Ideal) x2) b h).trans
    (congrArg (fun r => x1 (ix2 (Cert.Spec.rowOf 500 (by decide) r) h)) (rel_word x2 b))

/-- The candidates' rows: entry (b, n, h) is the entity table at the row the wrapped candidate word names, column h. -/
theorem cand_row (b : Fin 8) (n : Fin 100000) (h : Fin 256) :
    val_main_v26 (F := Ideal) x0 x3 (ix3 b n h)
      = x0 (ix2 (Cert.Spec.rowOf 100000 (by decide) (Cert.Spec.wrap 100000#32 (x3 (ix2 b n)))) h) := by
  unfold val_main_v26
  exact (gather_rows3_apply (N := 100000) (B := 8) (M := 100000) (C := 256) (by decide)
    Gen.gather_S100000x256_S8x100000x1_S8x100000x256_2_0_n_n_0_2_1256_wf x0 (val_main_v25 (F := Ideal) x3) b n h).trans
    (congrArg (fun r => x0 (ix2 (Cert.Spec.rowOf 100000 (by decide) r) h)) (cand_word x3 b n))

/-- The query row spread over the candidates: entry (b, n, h) is head plus relation at (b, h), whatever n. -/
theorem query (b : Fin 8) (n : Fin 100000) (h : Fin 256) :
    val_main_v28 (F := Ideal) x0 x1 x2 (ix3 b n h) = Cert.Spec.hrOf x0 x1 x2 (ix2 b h) := by
  have e28 : idx_main_v28 (ix3 b n h) = ix3 b (0 : Fin 1) h :=
    funext fun a => Fin.ext (by match a with | ⟨0, _⟩ => rfl | ⟨1, _⟩ => rfl | ⟨2, _⟩ => rfl)
  have e9 : idx_main_v9 (ix3 b (0 : Fin 1) h) = ix2 b h :=
    funext fun a => Fin.ext (by match a with | ⟨0, _⟩ => rfl | ⟨1, _⟩ => rfl)
  have e19 : idx_main_v19 (ix3 b (0 : Fin 1) h) = ix2 b h :=
    funext fun a => Fin.ext (by match a with | ⟨0, _⟩ => rfl | ⟨1, _⟩ => rfl)
  rw [val_main_v28_apply, e28, val_main_v27_apply, val_main_v9_apply, e9, val_main_v19_apply, e19, head_row, rel_row]
  rfl

/-- The reference's last stage is the specification's result: entry (b, n) is 12 less the sum over h, begun at 0, of
    the absolute differences between the query row b and the candidate's row. -/
theorem result_eq : val_main_v33 (F := Ideal) x0 x1 x2 x3 = Cert.Spec.result x0 x1 x2 x3 := by
  funext j
  obtain ⟨b, n, rfl⟩ : ∃ (b : Fin 8) (n : Fin 100000), j = ix2 b n := ⟨j 0, j 1, eq_ix2 j⟩
  rw [val_main_v33_apply, val_main_v32_apply, val_main_cst_5_apply, val_main_v31_apply, val_main_cst_apply]
  simp only [Ideal.subf_def, Ideal.ofBits_def, Ideal.ofBits_zero_f32, zero_add]
  show _ = Ideal.ofBits .f32 0x41400000#32 - ∑ h : Fin 256, _
  refine congrArg (_ - ·) (Finset.sum_congr rfl fun h _ => ?_)
  have e31 : idx_main_v31 (ix2 b n) h = ix3 b n h :=
    funext fun a => Fin.ext (by match a with | ⟨0, _⟩ => rfl | ⟨1, _⟩ => rfl | ⟨2, _⟩ => rfl)
  rw [e31, val_main_v30_apply, val_main_v29_apply, query, cand_row]
  rfl

end Stages

/-! ## The run -/

/-- Every weakly fair execution of the reference terminates with its result the specification's function of the argument
    arrays as the run found them, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v33) = Cert.Spec.result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono
    (fun _ h c => ⟨(h c).1.trans ((val_main_v33_eq _ _ _ _).trans (result_eq _ _ _ _)), (h c).2⟩)
    (Cert.ReferenceIdeal.Value.run (F := Ideal) m ρ)

end Cert.ReferenceIdeal.RefValue

end
-- ==== Proof.lean ====
/-
  The certificate: a dense TransE scorer against its reference, over the extended reals.

  Both programs compute, for batch row b and candidate n,
      γ − Σ_h | E[p₀(b), h] + R[p₁(b), h] − E[idx(b, n), h] |,   γ = 12,
  with the same wrap of negative indices and the same clamped row reads (`Cert.Spec.result`). The reference gathers the
  candidates' rows and reduces. The kernel streams the whole entity table once through a pipelined region of 25 grid
  points, each scoring a tile of 4096 entities against the eight resident query rows in sixteen chunks of 256 rows, and
  then reads the dense 8 × 100000 table of scores at the candidate indices, filling an out-of-range read with a
  not-a-number word. The last tile overhangs the table (25·4096 > 100000): its rows past the table's end hold words
  nothing names, the columns computed from them are never written back, and column n of a tile depends on row n of the
  entity tile alone — that is what makes the dense table well defined. Under the precondition (finite float inputs;
  every candidate index in [0, 100000)) the range test behind the fill is true at every entry, so the kernel's result is
  the dense table read at the candidates' rows: the reference's result.

  The word-level program's frame says nothing of the staging contents (there the lane sum is an opaque function of its
  whole source); the idealization rewrote nothing, so `preserves` is trivial.
-/
import proofs.«406659_j16879221473499_3_alg».proof.Defs
import proofs.«406659_j16879221473499_3_alg».proof.Proof.Gen.Kernel
import proofs.«406659_j16879221473499_3_alg».proof.Proof.Gen.KernelIdeal
import proofs.«406659_j16879221473499_3_alg».proof.Proof.Gen.ReferenceIdeal
import proofs.«406659_j16879221473499_3_alg».proof.Proof.Gen.Pre_finite_inputs
import proofs.«406659_j16879221473499_3_alg».proof.Proof.Kernel.WordFrame
import proofs.«406659_j16879221473499_3_alg».proof.Proof.KernelIdeal.Result
import proofs.«406659_j16879221473499_3_alg».proof.Proof.Reference.Value
import Idealize.ShloMosaic.Adequacy
import Idealize.ShloMosaic.Init

noncomputable section

namespace Cert.Proof

open Idealize.ShloMosaic Idealize.SL.Sem

/-- The word-level kernel runs and leaves its arguments as launched. -/
theorem frame_p : Cert.frame_Kernel := fun m ρ _ => Cert.Kernel.WordFrame.frame (F := Bits) m ρ

/-- So does its idealization. -/
theorem frame_pi : Cert.frame_KernelIdeal := fun m ρ _ => Cert.KernelIdeal.Run.frame m ρ

/-- And the reference: its run with the result dropped. -/
theorem frame_ri : Cert.frame_ReferenceIdeal := fun m ρ _ =>
  (θ_run Cert.ReferenceIdeal.defs _ _).mono (fun _ h c => (h c).2) (Cert.ReferenceIdeal.RefValue.run_spec m ρ)

/-- From memories that agree on the arguments both programs end at the specification's function of those arguments. -/
theorem algebraic : Cert.algebraic_KernelIdeal_ReferenceIdeal := by
  intro m ρ m' ρ' hpre hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Run.run_spec m ρ hpre, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
